-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8192x256 .f32) (main_arg1 : IVec S8192 32) (main_arg2 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S8192x256 : Shape := ⟨2, ![8192, 256]⟩
abbrev S8192 : Shape := ⟨1, ![8192]⟩
abbrev S1 : Shape := ⟨1, ![1]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩
abbrev S_ : Shape := ⟨0, ![]⟩

abbrev nBuf : Space → Nat
  | .hbm => 10
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1, .f32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v89 : BitVec 1 := Scalar.cmpi .eq arg1 c15_i32
  let v90 : BitVec 32 := Scalar.extui v89
  let c0_i32_42 : BitVec 32 := 0#32
  let v91 : BitVec 1 := Scalar.cmpi .ne v90 c0_i32_42
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  iota_S512x512_d0_w32 : S512x512.Iotas .tc 32 [0]
  iota_S512x512_d1_w32 : S512x512.Iotas .tc 32 [1]
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reducesTo_S8192x1_S_d0_1 : S8192x1.ReducesTo [0, 1] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S1 : Shape := ⟨1, ![1]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1, .f32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S256x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .i1⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  shapeCasts_S8192_S8192x1 : S8192.ShapeCasts S8192x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Step.lean ====
/-
  One grid point of the kernel as a pure function.

  Between grid points the kernel keeps six columns of 512 numbers (one per row of the current row tile): the running
  maximum, the sum of the positives' exponentials, the sum of the negatives' exponentials, the count of negatives, the
  count of positives, and the sum of the positives' raw scores.  A point takes the row tile's features and labels, the
  column tile's features and labels and the six columns, and returns the six columns updated; the first column tile
  of a row starts from the reset columns (−∞ and zeros); the last forms the row tile's losses from the six columns.
-/
import proofs.«167592_j69320772158191_1_alg».proof.Proof.Gen.Kernel.Skeleton

noncomputable section

namespace Cert.Kernel.Hand

open Cert.Kernel Cert.Kernel.Gen Idealize.ShloMosaic

variable {F : FTy → Type} [FloatOps F]

/-- The six columns kept between points, in the order of the kernel's scratch operands. -/
structure Sc (F : FTy → Type) [FloatOps F] where
  s0 : Vec F S512x1 .f32
  s1 : Vec F S512x1 .f32
  s2 : Vec F S512x1 .f32
  s3 : Vec F S512x1 .f32
  s4 : Vec F S512x1 .f32
  s5 : Vec F S512x1 .f32

/-- The columns a row tile starts from: the maximum at −∞, every sum at zero. -/
def scReset : Sc F := ⟨k0_pay6 (F := F), k0_pay7 (F := F), k0_pay8 (F := F), k0_pay9 (F := F), k0_pay10 (F := F), k0_pay11 (F := F)⟩

/-- One column tile's update of the six columns: `x0`, `l2` the row tile's features and labels, `x1`, `l3` the
    column tile's, `i` the grid point (its coordinates place the diagonal). -/
def scStep (i : grid0.Coords) (x0 x1 : Vec F S512x256 .f32) (l2 : Vec F S512x1 .i32) (l3 : Vec F S1x512 .i32) (p : Sc F) : Sc F :=
  ⟨k0_pay24 (k0_pay16 x0 x1) p.s0,
   k0_pay25 (k0_pay12 x0 x1) (k0_pay14 i l2 l3) (k0_pay16 x0 x1) p.s0 p.s1,
   k0_pay1 (k0_pay20 (k0_pay12 x0 x1) (k0_pay15 i l2 l3) (k0_pay16 x0 x1) p.s0 p.s2),
   k0_pay2 (k0_pay21 (k0_pay15 i l2 l3) p.s3),
   k0_pay3 (k0_pay22 (k0_pay14 i l2 l3) p.s4),
   k0_pay4 (k0_pay23 (k0_pay12 x0 x1) (k0_pay14 i l2 l3) p.s5)⟩

/-- The row tile's losses from the six columns (the last column tile's store into the output block). -/
def outOf (p : Sc F) : Vec F S512x1 .f32 := k0_pay5 p.s2 p.s3 p.s1 p.s4 p.s5 p.s0

end Cert.Kernel.Hand

end
-- ==== Proof.K.Runs.lean ====
/-
  What the kernel's runs share: the buffers as the region finds them, each window's block at a grid point, the two branch conditions of the body in closed form over the grid (the first column tile of a row tile; the last), where the output window is idle, and the staging and scratch memrefs by name.
-/
import proofs.«167592_j69320772158191_1_alg».proof.Proof.Gen.Kernel.Launch
import proofs.«167592_j69320772158191_1_alg».proof.Proof.Gen.Kernel.Skeleton
import proofs.«167592_j69320772158191_1_alg».proof.Proof.Gen.Kernel.Points
import proofs.«167592_j69320772158191_1_alg».proof.Proof.K.Step
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- and when the region is entered: the two reshapes of the labels have run. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The first column tile of a row tile: the grid's second coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column tile of a row tile: the grid's second coordinate is fifteen. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column tile the body stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column tile it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The six scratch operands: whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x1 .f32 := Memref.whole cc0_scratch5

/-- The scoped rest with the scratch operands as memrefs owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.K.Data.lean ====
/-
  What the kept columns and the output block hold after each grid point, by recursion on the point; the region invariant that carries the kept columns from point to point; and the pipeline's proof data.
-/
import proofs.«167592_j69320772158191_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kept columns after each point -/

/-- The six kept columns after the body at position `n`: the point's update of what the point before left — of the
    reset columns at the first column tile of a row tile. -/
def scAt (c : Dev nD) : (n : ℕ) → n < cfg0.N → Sc F
  | 0, hn => scStep (grid0.coords ⟨0, hn⟩) (iblk m c 0 ⟨0, hn⟩) (iblk m c 1 ⟨0, hn⟩) (iblk m c 2 ⟨0, hn⟩) (iblk m c 3 ⟨0, hn⟩) scReset
  | n + 1, hn => scStep (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 16 = 0 then scReset else scAt c n (Nat.lt_of_succ_lt hn))

/-- At the first column tile of a row tile: the update of the reset columns. -/
theorem scAt_first (c : Dev nD) (t : Fin cfg0.N) (h0 : t.val % 16 = 0) :
    scAt m c t.val t.isLt = scStep (grid0.coords t) (iblk m c 0 t) (iblk m c 1 t) (iblk m c 2 t) (iblk m c 3 t) scReset := by
  obtain ⟨n, hn⟩ := t
  cases n with
  | zero => rfl
  | succ n => exact (congrArg (scStep _ _ _ _ _) (if_pos h0))

/-- At any other column tile: the update of what the point before left. -/
theorem scAt_next (c : Dev nD) (t : Fin cfg0.N) (h0 : ¬t.val % 16 = 0) :
    scAt m c t.val t.isLt = scStep (grid0.coords t) (iblk m c 0 t) (iblk m c 1 t) (iblk m c 2 t) (iblk m c 3 t)
      (scAt m c (t.val - 1) (Nat.lt_of_le_of_lt (Nat.sub_le _ _) t.isLt)) := by
  obtain ⟨n, hn⟩ := t
  cases n with
  | zero => exact absurd (Nat.zero_mod _) h0
  | succ n => exact (congrArg (scStep _ _ _ _ _) (if_neg h0))

/-! ## The region invariant -/

/-- Before the first point: the scratch buffers at anything. Before any later point: each at what the point before left. -/
def PhiS (c : Dev nD) : (n : ℕ) → n ≤ cfg0.N → sProp 𝕄
  | 0, _ => Pipeline.ΦA spec0 c
  | n + 1, hn => iprop(iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5) ∗ (∃ r, prngReg c r)) := rfl

theorem PhiS_pos (c : Dev nD) (n : ℕ) (h : n ≤ cfg0.N) (hz : n ≠ 0) :
    PhiS m c n h = iprop(iprop(owns (c : Thread nD τ) scM0_0 fullShare (scAt m c (n - 1) (by omega)).s0 ∗ owns (c : Thread nD τ) scM0_1 fullShare (scAt m c (n - 1) (by omega)).s1 ∗ owns (c : Thread nD τ) scM0_2 fullShare (scAt m c (n - 1) (by omega)).s2 ∗ owns (c : Thread nD τ) scM0_3 fullShare (scAt m c (n - 1) (by omega)).s3 ∗ owns (c : Thread nD τ) scM0_4 fullShare (scAt m c (n - 1) (by omega)).s4 ∗ owns (c : Thread nD τ) scM0_5 fullShare (scAt m c (n - 1) (by omega)).s5) ∗ (∃ r, prngReg c r)) := by
  cases n with
  | zero => exact absurd rfl hz
  | succ n => rfl

/-! ## The pipeline's proof data -/

/-- The proof data on core `c`: the arrays as the region finds them; after the body each input's buffer at its
    block, the output's at the losses formed from the kept columns; the invariant above; nothing owed; the feature
    array, which two input windows read, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (scAt m c t.val t.isLt)
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outOf (scAt m c t.val t.isLt) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.Kernel.Hand

end
-- ==== Proof.K.RunA.lean ====
/-
  The kernel body at the first column tile of a row tile (and not the last): it first resets the six kept columns — whatever they held — then proceeds as at any other point; it stores nothing into the output block.
-/
import proofs.«167592_j69320772158191_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on any whole memrefs: the kept columns found at anything; the input blocks and
    the idle output block are handed back as found, each kept column ends with the pieces the body stored into it. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 x1 : Vec F S512x256 .f32) (x2 : Vec F S512x1 .i32) (x3 : Vec F S1x512 .i32) :
    Σ' (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)), { LS5 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.K.RunB.lean ====
/-
  The kernel body at a grid point that is neither the first nor the last column tile of its row tile: it loads the two feature blocks and the two label blocks, reads the six kept columns the point before left, and stores the six updated columns; it stores nothing into the output block.
-/
import proofs.«167592_j69320772158191_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on any whole memrefs: the input blocks and the idle output block are handed
    back as found, each kept column ends with the pieces the body stored into it. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 x1 : Vec F S512x256 .f32) (x2 : Vec F S512x1 .i32) (x3 : Vec F S1x512 .i32) (xs0 xs1 xs2 xs3 xs4 xs5 : Vec F S512x1 .f32) :
    Σ' (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)), { LS5 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.K.RunC.lean ====
/-
  The kernel body at the last column tile of a row tile (and not the first): it updates the six kept columns the point before left, then forms the row tile's losses from them and stores them into the output block.
-/
import proofs.«167592_j69320772158191_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on any whole memrefs: the output block found at anything; the input blocks are
    handed back as found, the output block and each kept column end with the pieces the body stored into them. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 x1 : Vec F S512x256 .f32) (x2 : Vec F S512x1 .i32) (x3 : Vec F S1x512 .i32) (xs0 xs1 xs2 xs3 xs4 xs5 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)), { LS5 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.K.Pieces.lean ====
/-
  What the body's stores leave, read back: at each kind of grid point the pieces the run found for a kept column (and, at the last column tile, for the output block) read as the point's pure update of the columns it was handed.
-/
import proofs.«167592_j69320772158191_1_alg».proof.Proof.K.Data
import proofs.«167592_j69320772158191_1_alg».proof.Proof.K.RunA
import proofs.«167592_j69320772158191_1_alg».proof.Proof.K.RunB
import proofs.«167592_j69320772158191_1_alg».proof.Proof.K.RunC
import Idealize.ShloMosaic.Lib.Ring
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offset of a whole-block rectangle. -/
theorem hz : (![0, 0] : Fin 2 → Nat) = fun _ => 0 := funext fun a => by fin_cases a <;> rfl

variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
  (x0 x1 : Vec F S512x256 .f32) (x2 : Vec F S512x1 .i32) (x3 : Vec F S1x512 .i32) (xs0 xs1 xs2 xs3 xs4 xs5 : Vec F S512x1 .f32)

/-! ## The first column tile of a row tile: the update of the reset columns -/

theorem pieceA_0 (hc0 : cond0_0 i) (hc1 : ¬cond0_1 i) (f : arg7.view.ty.Contents (Elt F)) :
    arg7.view.read (Elt F) (arg7.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).1) = (scStep i x0 x1 x2 x3 (scReset (F := F))).s0 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_1 (hc0 : cond0_0 i) (hc1 : ¬cond0_1 i) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.1) = (scStep i x0 x1 x2 x3 (scReset (F := F))).s1 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_2 (hc0 : cond0_0 i) (hc1 : ¬cond0_1 i) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.1) = (scStep i x0 x1 x2 x3 (scReset (F := F))).s2 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_3 (hc0 : cond0_0 i) (hc1 : ¬cond0_1 i) (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1) = (scStep i x0 x1 x2 x3 (scReset (F := F))).s3 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_4 (hc0 : cond0_0 i) (hc1 : ¬cond0_1 i) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1) = (scStep i x0 x1 x2 x3 (scReset (F := F))).s4 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_5 (hc0 : cond0_0 i) (hc1 : ¬cond0_1 i) (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1) = (scStep i x0 x1 x2 x3 (scReset (F := F))).s5 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

/-! ## A column tile that is neither first nor last -/

theorem pieceB_0 (hc0 : ¬cond0_0 i) (hc1 : ¬cond0_1 i) (f : arg7.view.ty.Contents (Elt F)) :
    arg7.view.read (Elt F) (arg7.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).1) = (scStep i x0 x1 x2 x3 ⟨xs0, xs1, xs2, xs3, xs4, xs5⟩).s0 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_1 (hc0 : ¬cond0_0 i) (hc1 : ¬cond0_1 i) (f : arg8.view.ty.Contents (Elt F)) :
    arg8.view.read (Elt F) (arg8.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.1) = (scStep i x0 x1 x2 x3 ⟨xs0, xs1, xs2, xs3, xs4, xs5⟩).s1 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_2 (hc0 : ¬cond0_0 i) (hc1 : ¬cond0_1 i) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.1) = (scStep i x0 x1 x2 x3 ⟨xs0, xs1, xs2, xs3, xs4, xs5⟩).s2 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_3 (hc0 : ¬cond0_0 i) (hc1 : ¬cond0_1 i) (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.1) = (scStep i x0 x1 x2 x3 ⟨xs0, xs1, xs2, xs3, xs4, xs5⟩).s3 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_4 (hc0 : ¬cond0_0 i) (hc1 : ¬cond0_1 i) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.1) = (scStep i x0 x1 x2 x3 ⟨xs0, xs1, xs2, xs3, xs4, xs5⟩).s4 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_5 (hc0 : ¬cond0_0 i) (hc1 : ¬cond0_1 i) (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.2.1) = (scStep i x0 x1 x2 x3 ⟨xs0, xs1, xs2, xs3, xs4, xs5⟩).s5 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

/-! ## The last column tile of a row tile: the update, then the losses -/

theorem pieceC_out (hc0 : ¬cond0_0 i) (hc1 : cond0_1 i) (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).1) = outOf (scStep i x0 x1 x2 x3 ⟨xs0, xs1, xs2, xs3, xs4, xs5⟩) := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_0 (hc0 : ¬cond0_0 i) (hc1 : cond0_1 i) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.1) = (scStep i x0 x1 x2 x3 ⟨xs0, xs1, xs2, xs3, xs4, xs5⟩).s0 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_1 (hc0 : ¬cond0_0 i) (hc1 : cond0_1 i) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.1) = (scStep i x0 x1 x2 x3 ⟨xs0, xs1, xs2, xs3, xs4, xs5⟩).s1 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_2 (hc0 : ¬cond0_0 i) (hc1 : cond0_1 i) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.1) = (scStep i x0 x1 x2 x3 ⟨xs0, xs1, xs2, xs3, xs4, xs5⟩).s2 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_3 (hc0 : ¬cond0_0 i) (hc1 : cond0_1 i) (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.1) = (scStep i x0 x1 x2 x3 ⟨xs0, xs1, xs2, xs3, xs4, xs5⟩).s3 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_4 (hc0 : ¬cond0_0 i) (hc1 : cond0_1 i) (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.2.1) = (scStep i x0 x1 x2 x3 ⟨xs0, xs1, xs2, xs3, xs4, xs5⟩).s4 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_5 (hc0 : ¬cond0_0 i) (hc1 : cond0_1 i) (f : arg12.view.ty.Contents (Elt F)) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.2.2.1) = (scStep i x0 x1 x2 x3 ⟨xs0, xs1, xs2, xs3, xs4, xs5⟩).s5 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

end Cert.Kernel.Hand

end
-- ==== Proof.K.Body.lean ====
/-
  The body obligation: at every grid point the kernel body, called on the windows' current staging buffers and the invariant, returns them as the proof data says. By cases on the point's place in its row tile (first column tile, last, or neither), each case the body's run at that kind of point, with the pieces it leaves read back as the point's pure update.
-/
import proofs.«167592_j69320772158191_1_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 256 := N_0; omega)

/-- Before any point the invariant holds each scratch buffer at SOME contents. -/
theorem Phi_any (c : Dev nD) (t : Fin (cfg0.N + 1)) : (dats m 0 c).Φ t ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) : sProp 𝕄) := by
  by_cases ht : t.val = 0
  · rw [show (dats m 0 c).Φ t = PhiS m c t.val (Nat.le_of_lt_succ t.isLt) from rfl, PhiS_zero m c _ _ ht, PhiA0_eq]
  · exact (Phi_out m c t ht).trans (Entails.of_eq (PhiA0_eq c))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · by_cases h1 : t.val % 16 = 15
    · exfalso; omega
    · rw [Dat.leavesExact_idle (dats m 0 c) 4 t (idleAt0_4 t (fun h => h1 ((hcond0_1 t).mp h))) (noFlush0_4 t (fun h => h1 ((hcond0_1 t).mp h)))]
      rw [scAt_first m c t h0]
      iintro ⟨HΦ, Ho, ⟨%d0, H0⟩, ⟨%d1, H1⟩, ⟨%d2, H2⟩, ⟨%d3, H3⟩, ⟨%d4, H4⟩⟩
      ihave HΦ' := (Phi_any m c t.castSucc) $$ HΦ
      icases HΦ' with ⟨⟨HS0, HS1, HS2, HS3, HS4, HS5⟩, Hg⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t)).2.2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitr [Hg]
        swap; · iexact Hg
        isplitl [HS0]
        · unfold owns; iexists _; isplitr
          swap; · iexact HS0
          ipureintro; exact pieceA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS1]
        · unfold owns; iexists _; isplitr
          swap; · iexact HS1
          ipureintro; exact pieceA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS2]
        · unfold owns; iexists _; isplitr
          swap; · iexact HS2
          ipureintro; exact pieceA_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS3]
        · unfold owns; iexists _; isplitr
          swap; · iexact HS3
          ipureintro; exact pieceA_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS4]
        · unfold owns; iexists _; isplitr
          swap; · iexact HS4
          ipureintro; exact pieceA_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        unfold owns; iexists _; isplitr
        swap; · iexact HS5
        ipureintro; exact pieceA_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [scAt_next m c t h0]
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5).2.2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e4, H4⟩, ⟨%e0, HS0⟩, ⟨%e1, HS1⟩, ⟨%e2, HS2⟩, ⟨%e3, HS3⟩, ⟨%e4', HS4⟩, ⟨%e5, HS5⟩⟩
      isplitl [HS0 HS1 HS2 HS3 HS4 HS5 Hg]
      · isplitr [Hg]
        swap; · iexact Hg
        isplitl [HS0]
        · unfold owns; iexists _; isplitr
          swap; · iexact HS0
          ipureintro; exact pieceC_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS1]
        · unfold owns; iexists _; isplitr
          swap; · iexact HS1
          ipureintro; exact pieceC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS2]
        · unfold owns; iexists _; isplitr
          swap; · iexact HS2
          ipureintro; exact pieceC_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS3]
        · unfold owns; iexists _; isplitr
          swap; · iexact HS3
          ipureintro; exact pieceC_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS4]
        · unfold owns; iexists _; isplitr
          swap; · iexact HS4
          ipureintro; exact pieceC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        unfold owns; iexists _; isplitr
        swap; · iexact HS5
        ipureintro; exact pieceC_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact pieceC_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
    · rw [Dat.leavesExact_idle (dats m 0 c) 4 t (idleAt0_4 t (fun h => h1 ((hcond0_1 t).mp h))) (noFlush0_4 t (fun h => h1 ((hcond0_1 t).mp h)))]
      rw [scAt_next m c t h0]
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5).2.2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitr [Hg]
        swap; · iexact Hg
        isplitl [HS0]
        · unfold owns; iexists _; isplitr
          swap; · iexact HS0
          ipureintro; exact pieceB_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS1]
        · unfold owns; iexists _; isplitr
          swap; · iexact HS1
          ipureintro; exact pieceB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS2]
        · unfold owns; iexists _; isplitr
          swap; · iexact HS2
          ipureintro; exact pieceB_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS3]
        · unfold owns; iexists _; isplitr
          swap; · iexact HS3
          ipureintro; exact pieceB_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS4]
        · unfold owns; iexists _; isplitr
          swap; · iexact HS4
          ipureintro; exact pieceB_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        unfold owns; iexists _; isplitr
        swap; · iexact HS5
        ipureintro; exact pieceB_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch: the program's entry function is two reshapes of the labels, the kernel region, and the mean of the region's result (a sum and a division); every weakly fair execution terminates, the arguments end unchanged, and the result is the mean of what the region left in its output array.
-/
import proofs.«167592_j69320772158191_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the host operations run within -/

/-- One whole buffer of the core at the full share. -/
abbrev pt (c : Dev nD) (b : Ref sig .tc) (f : Buf (Elt F) ((c : Thread nD τ).loc b)) : sProp 𝕄 :=
  ((c : Thread nD τ).loc b) ↦{fullShare} f

/-- The core's references that are no scoped buffer, as device buffers. -/
def ucRefs : Finset (DevRef τ sig) := (StableHlo.tcRefs τ sig).filter fun b => ¬ b.isScoped

omit [FloatOps F] in
/-- Holding that set at a valuation is holding the launch's unscoped buffers at it. -/
theorem held_ucRefs (c : Dev nD) (W : Valuation τ sig (Elt F)) :
    (StableHlo.held (c : Thread nD τ) ucRefs W : sProp 𝕄) = unscopedBufs c (fun b => W b) := by
  unfold unscopedBufs StableHlo.held ucRefs StableHlo.tcRefs
  rw [Finset.filter_map, bigSep_map]
  rfl

omit [FloatOps F] in
/-- The ten unscoped buffers one by one. -/
theorem held_eq (c : Dev nD) (W : Valuation τ sig (Elt F)) :
    (StableHlo.held (c : Thread nD τ) ucRefs W : sProp 𝕄)
      = iprop(pt c main_arg0 (W main_arg0) ∗ pt c main_arg1 (W main_arg1) ∗ pt c main_arg2 (W main_arg2) ∗ pt c main_v0 (W main_v0)
          ∗ pt c main_v1 (W main_v1) ∗ pt c main_v2 (W main_v2) ∗ pt c main_cst (W main_cst) ∗ pt c main_v3 (W main_v3)
          ∗ pt c main_cst_0 (W main_cst_0) ∗ pt c main_v4 (W main_v4)) := by
  rw [held_ucRefs]
  unfold unscopedBufs
  rw [bigSep_eq_bigSepL_of_eq [main_arg0, main_arg1, main_arg2, main_v0, main_v1, main_v2, main_cst, main_v3, main_cst_0, main_v4] (by decide) (by decide)]
  rfl

/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The valuations between the segments -/

/-- The core's buffers when the region is entered, as a valuation. -/
abbrev V1 (c : Dev nD) : Valuation τ sig (Elt F) := StableHlo.after hostOps0 (V₀ m c)

/-- The core's buffers when the region is left: the output array at what the region wrote, the rest as entered. -/
def W₂ (c : Dev nD) : Valuation τ sig (Elt F) :=
  Function.update (V1 m c) (Proc.devRef .tc main_v2) ((dats m 0 c).arrAt 4 cfg0.N)

theorem W₂_v2 (c : Dev nD) : W₂ m c main_v2 = (dats m 0 c).arrAt 4 cfg0.N := Function.update_self ..

theorem W₂_of_ne (c : Dev nD) (b : Ref sig .tc) (h : b ≠ main_v2) : W₂ m c b = V1 m c b :=
  Function.update_of_ne (StableHlo.devRef_ne_of_ne h) ..

/-- The core's buffers at the end. -/
abbrev V3 (c : Dev nD) : Valuation τ sig (Elt F) := StableHlo.after hostOps1 (W₂ m c)

/-! ## The windows' arrays -/

/-- The five windows' arrays one by one: the feature array twice, half and half. -/
theorem arrays5 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ pt c main_v0 (Fa 2) ∗ pt c main_v1 (Fa 3) ∗ pt c main_v2 (Fa 4)) := by
  unfold Pipeline.Dat.arrays
  rw [bigSep_W0, (arr_whole0 0).set_eq_univ, (arr_whole0 2).set_eq_univ, (arr_whole0 3).set_eq_univ, (arr_whole0 4).set_eq_univ]
  rfl

/-- An input window's array is never written. -/
theorem arrAt_0 (c : Dev nD) : (dats m 0 c).arrAt 0 cfg0.N = V1 m c main_arg0 := (dats m 0 c).arrAt_in 0 rfl _
theorem arrAt_1 (c : Dev nD) : (dats m 0 c).arrAt 1 cfg0.N = V1 m c main_arg0 := (dats m 0 c).arrAt_in 1 rfl _
theorem arrAt_2 (c : Dev nD) : (dats m 0 c).arrAt 2 cfg0.N = V1 m c main_v0 := (dats m 0 c).arrAt_in 2 rfl _
theorem arrAt_3 (c : Dev nD) : (dats m 0 c).arrAt 3 cfg0.N = V1 m c main_v1 := (dats m 0 c).arrAt_in 3 rfl _

/-! ## The segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers through the host operations: that the core owes nothing, and its generator register. -/
abbrev R (c : Dev nD) : sProp 𝕄 :=
  iprop((∃ W, owes (c : Thread nD τ) (0 : CellTallies nD τ sig Unit) W) ∗ ∃ r, prngReg c r)

/-- The two reshapes, over the unscoped buffers at the launch contents. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- The sum and the division, over the unscoped buffers as the region left them. -/
def seg2 : Pipeline.HostSeg (Name := ℕ) (U := UR sig nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro _ h; (repeat (cases h with | head => rfl | tail _ h => ?_)); exact nomatch h) (W₂ m) R

/-- The six unscoped buffers no window reads or writes, at the region-entry contents. -/
abbrev Zc (c : Dev nD) : sProp 𝕄 :=
  iprop(pt c main_arg1 (V1 m c main_arg1) ∗ pt c main_arg2 (V1 m c main_arg2) ∗ pt c main_cst (V1 m c main_cst) ∗ pt c main_v3 (V1 m c main_v3)
    ∗ pt c main_cst_0 (V1 m c main_cst_0) ∗ pt c main_v4 (V1 m c main_v4))

set_option backward.isDefEq.respectTransparency.types false in
/-- The region: entered from what the reshapes left — the feature array split in two halves for the two windows that
    read it, the two reshaped label arrays and the output array into the pipeline, the generator register into the
    invariant, the other six buffers bypassing —, left with the halves rejoined and the output array at what the
    region wrote. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (V1 m c) ∗ R c)
  post c := iprop(StableHlo.held (c : Thread nD τ) ucRefs (W₂ m c) ∗ R c)
  X c := iprop(∃ r, prngReg c r)
  Y c := iprop(∃ r, prngReg c r)
  Z c := Zc m c
  hentry c := by
    rw [held_eq, arrays5]
    iintro ⟨⟨⟨Ha0, Ha1, Ha2, Hv0, Hv1, Hv2, Hc, Hv3, Hc0, Hv4⟩, HO, Hp⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    isplitl [Ha2]; · iexact Ha2
    isplitl [Hc]; · iexact Hc
    isplitl [Hv3]; · iexact Hv3
    isplitl [Hc0]; · iexact Hc0
    iexact Hv4
  hin c := by
    refine BIBase.Entails.trans ?_ (Cert.Kernel.Hand.hin m c)
    unfold Pipeline.ΦA
    iintro ⟨Hp, -, Hr⟩
    isplitl [Hr]; · iexact Hr
    iexact Hp
  hout c := by
    refine (Cert.Kernel.Hand.hout m c).trans ?_
    rw [Pipeline.ownSems0_none]; unfold Pipeline.ΦA
    iintro ⟨Hr, Hp⟩
    isplitl [Hp]; · iexact Hp
    isplitr; · iempintro
    iexact Hr
  hexit c := by
    rw [held_eq, arrays5, W₂_v2, W₂_of_ne m c main_arg0 (by decide), W₂_of_ne m c main_arg1 (by decide), W₂_of_ne m c main_arg2 (by decide),
      W₂_of_ne m c main_v0 (by decide), W₂_of_ne m c main_v1 (by decide), W₂_of_ne m c main_cst (by decide), W₂_of_ne m c main_v3 (by decide),
      W₂_of_ne m c main_cst_0 (by decide), W₂_of_ne m c main_v4 (by decide), arrAt_0, arrAt_1, arrAt_2, arrAt_3]
    iintro ⟨⟨Hl, Hr, Hv0, Hv1, Hv2⟩, HO, Hp, ⟨Ha1, Ha2, Hc, Hv3, Hc0, Hv4⟩⟩
    ihave Ha0 := (pointsTo_share (PosShare.mem_left_op_right fullShare)).2 $$ [Hl Hr]
    · isplitl [Hl] <;> iassumption
    imodintro
    isplitr [HO Hp]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    isplitr [Hp]
    · unfold Pipeline.Dat.owesAt Pipeline.owesWithin
      icases HO with ⟨%W, -, HO⟩; iexists W; iexact HO
    iexact Hp

/-- The entry function as the list of the three. -/
abbrev segs : List (Pipeline.Seg (pcfgs (F := F)) adm (dats m) () defs₀ 𝒱₀ L lv) := [.host (seg0 m), .region (reg0 m), .host (seg2 m)]

/-! ## What the buffers hold at the end -/

/-- The result: the mean of the region's output array. -/
theorem V3_v4 (c : Dev nD) : V3 m c main_v4
    = Host.divf (Host.reduceAdd ((dats m 0 c).arrAt 4 cfg0.N) (constant S_ .f32 0x00000000#32) reducesTo_S8192x1_S_d0_1 h_S_) (constant S_ .f32 0x46000000#32) := by
  show StableHlo.after hostOps1 (W₂ m c) (Proc.devRef .tc main_v4) = _
  after_results
  rw [W₂_v2]

/-- No host operation and no window writes an argument. -/
theorem V3_arg0 (c : Dev nD) : V3 m c main_arg0 = m ((c : Thread nD τ).loc main_arg0) := by
  show StableHlo.after hostOps1 (W₂ m c) (Proc.devRef .tc main_arg0) = _
  after_results
  rw [W₂_of_ne m c main_arg0 (by decide)]
  show StableHlo.after hostOps0 (V₀ m c) (Proc.devRef .tc main_arg0) = _
  after_results
theorem V3_arg1 (c : Dev nD) : V3 m c main_arg1 = m ((c : Thread nD τ).loc main_arg1) := by
  show StableHlo.after hostOps1 (W₂ m c) (Proc.devRef .tc main_arg1) = _
  after_results
  rw [W₂_of_ne m c main_arg1 (by decide)]
  show StableHlo.after hostOps0 (V₀ m c) (Proc.devRef .tc main_arg1) = _
  after_results
theorem V3_arg2 (c : Dev nD) : V3 m c main_arg2 = m ((c : Thread nD τ).loc main_arg2) := by
  show StableHlo.after hostOps1 (W₂ m c) (Proc.devRef .tc main_arg2) = _
  after_results
  rw [W₂_of_ne m c main_arg2 (by decide)]
  show StableHlo.after hostOps0 (V₀ m c) (Proc.devRef .tc main_arg2) = _
  after_results

set_option backward.isDefEq.respectTransparency.types false in
/-- At the compiled mesh, for any float values, from any memory with zero counters: every weakly fair execution of
    the entry function terminates; the result buffer holds the sum of the region's output array divided by 8192, and
    the three argument arrays are as launched. -/
theorem run_main : θ_run defs (onTc (τ := τ) (main (F := F))) ⟨m, fun _ => 0, ρ⟩ (fun r => ∀ c : Dev nD,
      r.2.mem ((c.tc : Thread nD τ).loc main_v4)
        = Host.divf (Host.reduceAdd ((dats m 0 c).arrAt 4 cfg0.N) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj (emb₁ : Emb (UR sig nD τ) 𝕄) defs₀ 𝒱₀ L lv m ρ main (segs m)
    (fun c Q => by rw [main_segs adm (dats m) () 𝒱₀ L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own ((emb₁ : Emb (UR sig nD τ) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := fun c => StableHlo.held (c : Thread nD τ) ucRefs (V3 m c))
    (hch := by
      refine ⟨fun _ => .rfl, fun _ => .rfl, fun _ => .rfl, fun c => ?_⟩
      show iprop(StableHlo.held (c : Thread nD τ) ucRefs (V3 m c) ∗ R c)
        ⊢ iprop(StableHlo.held (c : Thread nD τ) ucRefs (V3 m c) ∗ ∃ W, owes (c : Thread nD τ) (0 : CellTallies nD τ sig Unit) W)
      iintro ⟨Hh, HO, -⟩
      isplitl [Hh]; · iexact Hh
      iexact HO)
    (hinit := by
      refine Pipeline.initEach L lv fun c => ?_
      rw [show unscopedBufs c (fun b => m ((c : Thread nD τ).loc b)) = StableHlo.held (c : Thread nD τ) ucRefs (V₀ m c) from (held_ucRefs c (V₀ m c)).symm]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v4) = V3 m c main_v4 ∧ s.mem ((c : Thread nD τ).loc main_arg0) = V3 m c main_arg0
      ∧ s.mem ((c : Thread nD τ).loc main_arg1) = V3 m c main_arg1 ∧ s.mem ((c : Thread nD τ).loc main_arg2) = V3 m c main_arg2)
    (hfin := fun c s' => by
      rw [held_eq]
      iintro ⟨⟨Ha0, Ha1, Ha2, -, -, -, -, -, -, Hv4⟩, HSI⟩
      icombine HSI Ha0 gives %h0
      icombine HSI Ha1 gives %h1
      icombine HSI Ha2 gives %h2
      icombine HSI Hv4 gives %h4
      imodintro
      isplitr; · ipureintro; exact ⟨Buf.eq_of_forall_mem_univ h4, Buf.eq_of_forall_mem_univ h0, Buf.eq_of_forall_mem_univ h1, Buf.eq_of_forall_mem_univ h2⟩
      iexact HSI)
    (hQ := fun s h c => by
      obtain ⟨h4, h0, h1, h2⟩ := h c
      rw [V3_v4] at h4; rw [V3_arg0] at h0; rw [V3_arg1] at h1; rw [V3_arg2] at h2
      exact ⟨h4, h0, h1, h2⟩)

end Cert.Kernel.Hand

end
-- ==== Proof.KI.Step.lean ====
/-
  One grid point of the kernel as a pure function.

  Between grid points the kernel keeps six columns of 512 numbers (one per row of the current row tile): the running
  maximum, the sum of the positives' exponentials, the sum of the negatives' exponentials, the count of negatives, the
  count of positives, and the sum of the positives' raw scores.  A point takes the row tile's features and labels, the
  column tile's features and labels and the six columns, and returns the six columns updated; the first column tile
  of a row starts from the reset columns (−∞ and zeros); the last forms the row tile's losses from the six columns.
-/
import proofs.«167592_j69320772158191_1_alg».proof.Proof.Gen.KernelIdeal.Skeleton

noncomputable section

namespace Cert.KernelIdeal.Hand

open Cert.KernelIdeal Cert.KernelIdeal.Gen Idealize.ShloMosaic

variable {F : FTy → Type} [FloatOps F] [Named F]

/-- The six columns kept between points, in the order of the kernel's scratch operands. -/
structure Sc (F : FTy → Type) [FloatOps F] where
  s0 : Vec F S512x1 .f32
  s1 : Vec F S512x1 .f32
  s2 : Vec F S512x1 .f32
  s3 : Vec F S512x1 .f32
  s4 : Vec F S512x1 .f32
  s5 : Vec F S512x1 .f32

/-- The columns a row tile starts from: the maximum at −∞, every sum at zero. -/
def scReset : Sc F := ⟨k0_pay6 (F := F), k0_pay7 (F := F), k0_pay8 (F := F), k0_pay9 (F := F), k0_pay10 (F := F), k0_pay11 (F := F)⟩

/-- One column tile's update of the six columns: `x0`, `l2` the row tile's features and labels, `x1`, `l3` the
    column tile's, `i` the grid point (its coordinates place the diagonal). -/
def scStep (i : grid0.Coords) (x0 x1 : Vec F S512x256 .f32) (l2 : Vec F S512x1 .i32) (l3 : Vec F S1x512 .i32) (p : Sc F) : Sc F :=
  ⟨k0_pay24 (k0_pay16 x0 x1) p.s0,
   k0_pay25 (k0_pay12 x0 x1) (k0_pay14 i l2 l3) (k0_pay16 x0 x1) p.s0 p.s1,
   k0_pay1 (k0_pay20 (k0_pay12 x0 x1) (k0_pay15 i l2 l3) (k0_pay16 x0 x1) p.s0 p.s2),
   k0_pay2 (k0_pay21 (k0_pay15 i l2 l3) p.s3),
   k0_pay3 (k0_pay22 (k0_pay14 i l2 l3) p.s4),
   k0_pay4 (k0_pay23 (k0_pay12 x0 x1) (k0_pay14 i l2 l3) p.s5)⟩

/-- The row tile's losses from the six columns (the last column tile's store into the output block). -/
def outOf (p : Sc F) : Vec F S512x1 .f32 := k0_pay5 p.s2 p.s3 p.s1 p.s4 p.s5 p.s0

end Cert.KernelIdeal.Hand

end
-- ==== Proof.KI.Runs.lean ====
/-
  What the kernel's runs share: the buffers as the region finds them, each window's block at a grid point, the two branch conditions of the body in closed form over the grid (the first column tile of a row tile; the last), where the output window is idle, and the staging and scratch memrefs by name.
-/
import proofs.«167592_j69320772158191_1_alg».proof.Proof.Gen.KernelIdeal.Launch
import proofs.«167592_j69320772158191_1_alg».proof.Proof.Gen.KernelIdeal.Skeleton
import proofs.«167592_j69320772158191_1_alg».proof.Proof.Gen.KernelIdeal.Points
import proofs.«167592_j69320772158191_1_alg».proof.Proof.KI.Step
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- and when the region is entered: the two reshapes of the labels have run. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The first column tile of a row tile: the grid's second coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column tile of a row tile: the grid's second coordinate is fifteen. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column tile the body stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column tile it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The six scratch operands: whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x1 .f32 := Memref.whole cc0_scratch5

/-- The scoped rest with the scratch operands as memrefs owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.Data.lean ====
/-
  What the kept columns and the output block hold after each grid point, by recursion on the point; the region invariant that carries the kept columns from point to point; and the pipeline's proof data.
-/
import proofs.«167592_j69320772158191_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The kept columns after each point -/

/-- The six kept columns after the body at position `n`: the point's update of what the point before left — of the
    reset columns at the first column tile of a row tile. -/
def scAt (c : Dev nD) : (n : ℕ) → n < cfg0.N → Sc F
  | 0, hn => scStep (grid0.coords ⟨0, hn⟩) (iblk m c 0 ⟨0, hn⟩) (iblk m c 1 ⟨0, hn⟩) (iblk m c 2 ⟨0, hn⟩) (iblk m c 3 ⟨0, hn⟩) scReset
  | n + 1, hn => scStep (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 16 = 0 then scReset else scAt c n (Nat.lt_of_succ_lt hn))

/-- At the first column tile of a row tile: the update of the reset columns. -/
theorem scAt_first (c : Dev nD) (t : Fin cfg0.N) (h0 : t.val % 16 = 0) :
    scAt m c t.val t.isLt = scStep (grid0.coords t) (iblk m c 0 t) (iblk m c 1 t) (iblk m c 2 t) (iblk m c 3 t) scReset := by
  obtain ⟨n, hn⟩ := t
  cases n with
  | zero => rfl
  | succ n => exact (congrArg (scStep _ _ _ _ _) (if_pos h0))

/-- At any other column tile: the update of what the point before left. -/
theorem scAt_next (c : Dev nD) (t : Fin cfg0.N) (h0 : ¬t.val % 16 = 0) :
    scAt m c t.val t.isLt = scStep (grid0.coords t) (iblk m c 0 t) (iblk m c 1 t) (iblk m c 2 t) (iblk m c 3 t)
      (scAt m c (t.val - 1) (Nat.lt_of_le_of_lt (Nat.sub_le _ _) t.isLt)) := by
  obtain ⟨n, hn⟩ := t
  cases n with
  | zero => exact absurd (Nat.zero_mod _) h0
  | succ n => exact (congrArg (scStep _ _ _ _ _) (if_neg h0))

/-! ## The region invariant -/

/-- Before the first point: the scratch buffers at anything. Before any later point: each at what the point before left. -/
def PhiS (c : Dev nD) : (n : ℕ) → n ≤ cfg0.N → sProp 𝕄
  | 0, _ => Pipeline.ΦA spec0 c
  | n + 1, hn => iprop(iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5) ∗ (∃ r, prngReg c r)) := rfl

theorem PhiS_pos (c : Dev nD) (n : ℕ) (h : n ≤ cfg0.N) (hz : n ≠ 0) :
    PhiS m c n h = iprop(iprop(owns (c : Thread nD τ) scM0_0 fullShare (scAt m c (n - 1) (by omega)).s0 ∗ owns (c : Thread nD τ) scM0_1 fullShare (scAt m c (n - 1) (by omega)).s1 ∗ owns (c : Thread nD τ) scM0_2 fullShare (scAt m c (n - 1) (by omega)).s2 ∗ owns (c : Thread nD τ) scM0_3 fullShare (scAt m c (n - 1) (by omega)).s3 ∗ owns (c : Thread nD τ) scM0_4 fullShare (scAt m c (n - 1) (by omega)).s4 ∗ owns (c : Thread nD τ) scM0_5 fullShare (scAt m c (n - 1) (by omega)).s5) ∗ (∃ r, prngReg c r)) := by
  cases n with
  | zero => exact absurd rfl hz
  | succ n => rfl

/-! ## The pipeline's proof data -/

/-- The proof data on core `c`: the arrays as the region finds them; after the body each input's buffer at its
    block, the output's at the losses formed from the kept columns; the invariant above; nothing owed; the feature
    array, which two input windows read, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (scAt m c t.val t.isLt)
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outOf (scAt m c t.val t.isLt) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.KernelIdeal.Hand

end
-- ==== Proof.KI.RunA.lean ====
/-
  The kernel body at the first column tile of a row tile (and not the last): it first resets the six kept columns — whatever they held — then proceeds as at any other point; it stores nothing into the output block.
-/
import proofs.«167592_j69320772158191_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on any whole memrefs: the kept columns found at anything; the input blocks and
    the idle output block are handed back as found, each kept column ends with the pieces the body stored into it. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 x1 : Vec F S512x256 .f32) (x2 : Vec F S512x1 .i32) (x3 : Vec F S1x512 .i32) :
    Σ' (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)), { LS5 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.RunB.lean ====
/-
  The kernel body at a grid point that is neither the first nor the last column tile of its row tile: it loads the two feature blocks and the two label blocks, reads the six kept columns the point before left, and stores the six updated columns; it stores nothing into the output block.
-/
import proofs.«167592_j69320772158191_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on any whole memrefs: the input blocks and the idle output block are handed
    back as found, each kept column ends with the pieces the body stored into it. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 x1 : Vec F S512x256 .f32) (x2 : Vec F S512x1 .i32) (x3 : Vec F S1x512 .i32) (xs0 xs1 xs2 xs3 xs4 xs5 : Vec F S512x1 .f32) :
    Σ' (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)), { LS5 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.RunC.lean ====
/-
  The kernel body at the last column tile of a row tile (and not the first): it updates the six kept columns the point before left, then forms the row tile's losses from them and stores them into the output block.
-/
import proofs.«167592_j69320772158191_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on any whole memrefs: the output block found at anything; the input blocks are
    handed back as found, the output block and each kept column end with the pieces the body stored into them. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 x1 : Vec F S512x256 .f32) (x2 : Vec F S512x1 .i32) (x3 : Vec F S1x512 .i32) (xs0 xs1 xs2 xs3 xs4 xs5 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)), { LS5 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.Pieces.lean ====
/-
  What the body's stores leave, read back: at each kind of grid point the pieces the run found for a kept column (and, at the last column tile, for the output block) read as the point's pure update of the columns it was handed.
-/
import proofs.«167592_j69320772158191_1_alg».proof.Proof.KI.Data
import proofs.«167592_j69320772158191_1_alg».proof.Proof.KI.RunA
import proofs.«167592_j69320772158191_1_alg».proof.Proof.KI.RunB
import proofs.«167592_j69320772158191_1_alg».proof.Proof.KI.RunC
import Idealize.ShloMosaic.Lib.Ring
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The zero offset of a whole-block rectangle. -/
theorem hz : (![0, 0] : Fin 2 → Nat) = fun _ => 0 := funext fun a => by fin_cases a <;> rfl

variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
  (x0 x1 : Vec F S512x256 .f32) (x2 : Vec F S512x1 .i32) (x3 : Vec F S1x512 .i32) (xs0 xs1 xs2 xs3 xs4 xs5 : Vec F S512x1 .f32)

/-! ## The first column tile of a row tile: the update of the reset columns -/

theorem pieceA_0 (hc0 : cond0_0 i) (hc1 : ¬cond0_1 i) (f : arg7.view.ty.Contents (Elt F)) :
    arg7.view.read (Elt F) (arg7.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).1) = (scStep i x0 x1 x2 x3 (scReset (F := F))).s0 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_1 (hc0 : cond0_0 i) (hc1 : ¬cond0_1 i) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.1) = (scStep i x0 x1 x2 x3 (scReset (F := F))).s1 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_2 (hc0 : cond0_0 i) (hc1 : ¬cond0_1 i) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.1) = (scStep i x0 x1 x2 x3 (scReset (F := F))).s2 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_3 (hc0 : cond0_0 i) (hc1 : ¬cond0_1 i) (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.1) = (scStep i x0 x1 x2 x3 (scReset (F := F))).s3 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_4 (hc0 : cond0_0 i) (hc1 : ¬cond0_1 i) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.1) = (scStep i x0 x1 x2 x3 (scReset (F := F))).s4 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceA_5 (hc0 : cond0_0 i) (hc1 : ¬cond0_1 i) (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2 x3).2.2.2.2.2.1) = (scStep i x0 x1 x2 x3 (scReset (F := F))).s5 := by
  rw [View.read_writes_eq_canon _ _ _ (View.cover_of_tiledL _ S512x1.size (by sl_kernel_rfl))]
  unfold kernelRun0_A; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

/-! ## A column tile that is neither first nor last -/

theorem pieceB_0 (hc0 : ¬cond0_0 i) (hc1 : ¬cond0_1 i) (f : arg7.view.ty.Contents (Elt F)) :
    arg7.view.read (Elt F) (arg7.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).1) = (scStep i x0 x1 x2 x3 ⟨xs0, xs1, xs2, xs3, xs4, xs5⟩).s0 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_1 (hc0 : ¬cond0_0 i) (hc1 : ¬cond0_1 i) (f : arg8.view.ty.Contents (Elt F)) :
    arg8.view.read (Elt F) (arg8.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.1) = (scStep i x0 x1 x2 x3 ⟨xs0, xs1, xs2, xs3, xs4, xs5⟩).s1 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_2 (hc0 : ¬cond0_0 i) (hc1 : ¬cond0_1 i) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.1) = (scStep i x0 x1 x2 x3 ⟨xs0, xs1, xs2, xs3, xs4, xs5⟩).s2 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_3 (hc0 : ¬cond0_0 i) (hc1 : ¬cond0_1 i) (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.1) = (scStep i x0 x1 x2 x3 ⟨xs0, xs1, xs2, xs3, xs4, xs5⟩).s3 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_4 (hc0 : ¬cond0_0 i) (hc1 : ¬cond0_1 i) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.1) = (scStep i x0 x1 x2 x3 ⟨xs0, xs1, xs2, xs3, xs4, xs5⟩).s4 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceB_5 (hc0 : ¬cond0_0 i) (hc1 : ¬cond0_1 i) (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.2.1) = (scStep i x0 x1 x2 x3 ⟨xs0, xs1, xs2, xs3, xs4, xs5⟩).s5 := by
  rw [View.read_writes_eq_canon _ _ _ (View.cover_of_tiledL _ S512x1.size (by sl_kernel_rfl))]
  unfold kernelRun0_B; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

/-! ## The last column tile of a row tile: the update, then the losses -/

theorem pieceC_out (hc0 : ¬cond0_0 i) (hc1 : cond0_1 i) (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).1) = outOf (scStep i x0 x1 x2 x3 ⟨xs0, xs1, xs2, xs3, xs4, xs5⟩) := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_0 (hc0 : ¬cond0_0 i) (hc1 : cond0_1 i) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.1) = (scStep i x0 x1 x2 x3 ⟨xs0, xs1, xs2, xs3, xs4, xs5⟩).s0 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_1 (hc0 : ¬cond0_0 i) (hc1 : cond0_1 i) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.1) = (scStep i x0 x1 x2 x3 ⟨xs0, xs1, xs2, xs3, xs4, xs5⟩).s1 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_2 (hc0 : ¬cond0_0 i) (hc1 : cond0_1 i) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.1) = (scStep i x0 x1 x2 x3 ⟨xs0, xs1, xs2, xs3, xs4, xs5⟩).s2 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_3 (hc0 : ¬cond0_0 i) (hc1 : cond0_1 i) (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.1) = (scStep i x0 x1 x2 x3 ⟨xs0, xs1, xs2, xs3, xs4, xs5⟩).s3 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_4 (hc0 : ¬cond0_0 i) (hc1 : cond0_1 i) (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.2.1) = (scStep i x0 x1 x2 x3 ⟨xs0, xs1, xs2, xs3, xs4, xs5⟩).s4 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

theorem pieceC_5 (hc0 : ¬cond0_0 i) (hc1 : cond0_1 i) (f : arg12.view.ty.Contents (Elt F)) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5).2.2.2.2.2.2.1) = (scStep i x0 x1 x2 x3 ⟨xs0, xs1, xs2, xs3, xs4, xs5⟩).s5 := by
  rw [View.read_writes_eq_canon _ _ _ (View.cover_of_tiledL _ S512x1.size (by sl_kernel_rfl))]
  unfold kernelRun0_C; dsimp only; sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x256) hz, View.ld_unit_zero (S := S512x1) hz, View.ld_unit_zero (S := S1x512) hz, View.readCov_unit_zero (S := S512x1) _ hz]
  try rfl

end Cert.KernelIdeal.Hand

end
-- ==== Proof.KI.Body.lean ====
/-
  The body obligation: at every grid point the kernel body, called on the windows' current staging buffers and the invariant, returns them as the proof data says. By cases on the point's place in its row tile (first column tile, last, or neither), each case the body's run at that kind of point, with the pieces it leaves read back as the point's pure update.
-/
import proofs.«167592_j69320772158191_1_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 256 := N_0; omega)

/-- Before any point the invariant holds each scratch buffer at SOME contents. -/
theorem Phi_any (c : Dev nD) (t : Fin (cfg0.N + 1)) : (dats m 0 c).Φ t ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) : sProp 𝕄) := by
  by_cases ht : t.val = 0
  · rw [show (dats m 0 c).Φ t = PhiS m c t.val (Nat.le_of_lt_succ t.isLt) from rfl, PhiS_zero m c _ _ ht, PhiA0_eq]
  · exact (Phi_out m c t ht).trans (Entails.of_eq (PhiA0_eq c))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · by_cases h1 : t.val % 16 = 15
    · exfalso; omega
    · rw [Dat.leavesExact_idle (dats m 0 c) 4 t (idleAt0_4 t (fun h => h1 ((hcond0_1 t).mp h))) (noFlush0_4 t (fun h => h1 ((hcond0_1 t).mp h)))]
      rw [scAt_first m c t h0]
      iintro ⟨HΦ, Ho, ⟨%d0, H0⟩, ⟨%d1, H1⟩, ⟨%d2, H2⟩, ⟨%d3, H3⟩, ⟨%d4, H4⟩⟩
      ihave HΦ' := (Phi_any m c t.castSucc) $$ HΦ
      icases HΦ' with ⟨⟨HS0, HS1, HS2, HS3, HS4, HS5⟩, Hg⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t)).2.2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitr [Hg]
        swap; · iexact Hg
        isplitl [HS0]
        · unfold owns; iexists _; isplitr
          swap; · iexact HS0
          ipureintro; exact pieceA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS1]
        · unfold owns; iexists _; isplitr
          swap; · iexact HS1
          ipureintro; exact pieceA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS2]
        · unfold owns; iexists _; isplitr
          swap; · iexact HS2
          ipureintro; exact pieceA_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS3]
        · unfold owns; iexists _; isplitr
          swap; · iexact HS3
          ipureintro; exact pieceA_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        isplitl [HS4]
        · unfold owns; iexists _; isplitr
          swap; · iexact HS4
          ipureintro; exact pieceA_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
        unfold owns; iexists _; isplitr
        swap; · iexact HS5
        ipureintro; exact pieceA_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h)) _
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [scAt_next m c t h0]
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5).2.2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e4, H4⟩, ⟨%e0, HS0⟩, ⟨%e1, HS1⟩, ⟨%e2, HS2⟩, ⟨%e3, HS3⟩, ⟨%e4', HS4⟩, ⟨%e5, HS5⟩⟩
      isplitl [HS0 HS1 HS2 HS3 HS4 HS5 Hg]
      · isplitr [Hg]
        swap; · iexact Hg
        isplitl [HS0]
        · unfold owns; iexists _; isplitr
          swap; · iexact HS0
          ipureintro; exact pieceC_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS1]
        · unfold owns; iexists _; isplitr
          swap; · iexact HS1
          ipureintro; exact pieceC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS2]
        · unfold owns; iexists _; isplitr
          swap; · iexact HS2
          ipureintro; exact pieceC_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS3]
        · unfold owns; iexists _; isplitr
          swap; · iexact HS3
          ipureintro; exact pieceC_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        isplitl [HS4]
        · unfold owns; iexists _; isplitr
          swap; · iexact HS4
          ipureintro; exact pieceC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
        unfold owns; iexists _; isplitr
        swap; · iexact HS5
        ipureintro; exact pieceC_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact pieceC_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) ((hcond0_1 t).mpr h1) _
    · rw [Dat.leavesExact_idle (dats m 0 c) 4 t (idleAt0_4 t (fun h => h1 ((hcond0_1 t).mp h))) (noFlush0_4 t (fun h => h1 ((hcond0_1 t).mp h)))]
      rw [scAt_next m c t h0]
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5).2.2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitr [Hg]
        swap; · iexact Hg
        isplitl [HS0]
        · unfold owns; iexists _; isplitr
          swap; · iexact HS0
          ipureintro; exact pieceB_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS1]
        · unfold owns; iexists _; isplitr
          swap; · iexact HS1
          ipureintro; exact pieceB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS2]
        · unfold owns; iexists _; isplitr
          swap; · iexact HS2
          ipureintro; exact pieceB_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS3]
        · unfold owns; iexists _; isplitr
          swap; · iexact HS3
          ipureintro; exact pieceB_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        isplitl [HS4]
        · unfold owns; iexists _; isplitr
          swap; · iexact HS4
          ipureintro; exact pieceB_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
        unfold owns; iexists _; isplitr
        swap; · iexact HS5
        ipureintro; exact pieceB_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (scAt m c (t.val - 1) (Nat.lt_of_le_of_lt (Nat.sub_le _ _) t.isLt)).s0 (scAt m c (t.val - 1) (Nat.lt_of_le_of_lt (Nat.sub_le _ _) t.isLt)).s1 (scAt m c (t.val - 1) (Nat.lt_of_le_of_lt (Nat.sub_le _ _) t.isLt)).s2 (scAt m c (t.val - 1) (Nat.lt_of_le_of_lt (Nat.sub_le _ _) t.isLt)).s3 (scAt m c (t.val - 1) (Nat.lt_of_le_of_lt (Nat.sub_le _ _) t.isLt)).s4 (scAt m c (t.val - 1) (Nat.lt_of_le_of_lt (Nat.sub_le _ _) t.isLt)).s5 (fun h => h0 ((hcond0_0 t).mp h)) (fun h => h1 ((hcond0_1 t).mp h)) _
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch: the program's entry function is two reshapes of the labels, the kernel region, and the mean of the region's result (a sum and a division); every weakly fair execution terminates, the arguments end unchanged, and the result is the mean of what the region left in its output array.
-/
import proofs.«167592_j69320772158191_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers the host operations run within -/

/-- One whole buffer of the core at the full share. -/
abbrev pt (c : Dev nD) (b : Ref sig .tc) (f : Buf (Elt F) ((c : Thread nD τ).loc b)) : sProp 𝕄 :=
  ((c : Thread nD τ).loc b) ↦{fullShare} f

/-- The core's references that are no scoped buffer, as device buffers. -/
def ucRefs : Finset (DevRef τ sig) := (StableHlo.tcRefs τ sig).filter fun b => ¬ b.isScoped

omit [FloatOps F] [Named F] in
/-- Holding that set at a valuation is holding the launch's unscoped buffers at it. -/
theorem held_ucRefs (c : Dev nD) (W : Valuation τ sig (Elt F)) :
    (StableHlo.held (c : Thread nD τ) ucRefs W : sProp 𝕄) = unscopedBufs c (fun b => W b) := by
  unfold unscopedBufs StableHlo.held ucRefs StableHlo.tcRefs
  rw [Finset.filter_map, bigSep_map]
  rfl

omit [FloatOps F] [Named F] in
/-- The ten unscoped buffers one by one. -/
theorem held_eq (c : Dev nD) (W : Valuation τ sig (Elt F)) :
    (StableHlo.held (c : Thread nD τ) ucRefs W : sProp 𝕄)
      = iprop(pt c main_arg0 (W main_arg0) ∗ pt c main_arg1 (W main_arg1) ∗ pt c main_arg2 (W main_arg2) ∗ pt c main_v0 (W main_v0)
          ∗ pt c main_v1 (W main_v1) ∗ pt c main_v2 (W main_v2) ∗ pt c main_cst (W main_cst) ∗ pt c main_v3 (W main_v3)
          ∗ pt c main_cst_0 (W main_cst_0) ∗ pt c main_v4 (W main_v4)) := by
  rw [held_ucRefs]
  unfold unscopedBufs
  rw [bigSep_eq_bigSepL_of_eq [main_arg0, main_arg1, main_arg2, main_v0, main_v1, main_v2, main_cst, main_v3, main_cst_0, main_v4] (by decide) (by decide)]
  rfl

omit [Named F] in
/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The valuations between the segments -/

/-- The core's buffers when the region is entered, as a valuation. -/
abbrev V1 (c : Dev nD) : Valuation τ sig (Elt F) := StableHlo.after hostOps0 (V₀ m c)

/-- The core's buffers when the region is left: the output array at what the region wrote, the rest as entered. -/
def W₂ (c : Dev nD) : Valuation τ sig (Elt F) :=
  Function.update (V1 m c) (Proc.devRef .tc main_v2) ((dats m 0 c).arrAt 4 cfg0.N)

theorem W₂_v2 (c : Dev nD) : W₂ m c main_v2 = (dats m 0 c).arrAt 4 cfg0.N := Function.update_self ..

theorem W₂_of_ne (c : Dev nD) (b : Ref sig .tc) (h : b ≠ main_v2) : W₂ m c b = V1 m c b :=
  Function.update_of_ne (StableHlo.devRef_ne_of_ne h) ..

/-- The core's buffers at the end. -/
abbrev V3 (c : Dev nD) : Valuation τ sig (Elt F) := StableHlo.after hostOps1 (W₂ m c)

/-! ## The windows' arrays -/

/-- The five windows' arrays one by one: the feature array twice, half and half. -/
theorem arrays5 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ pt c main_v0 (Fa 2) ∗ pt c main_v1 (Fa 3) ∗ pt c main_v2 (Fa 4)) := by
  unfold Pipeline.Dat.arrays
  rw [bigSep_W0, (arr_whole0 0).set_eq_univ, (arr_whole0 2).set_eq_univ, (arr_whole0 3).set_eq_univ, (arr_whole0 4).set_eq_univ]
  rfl

/-- An input window's array is never written. -/
theorem arrAt_0 (c : Dev nD) : (dats m 0 c).arrAt 0 cfg0.N = V1 m c main_arg0 := (dats m 0 c).arrAt_in 0 rfl _
theorem arrAt_1 (c : Dev nD) : (dats m 0 c).arrAt 1 cfg0.N = V1 m c main_arg0 := (dats m 0 c).arrAt_in 1 rfl _
theorem arrAt_2 (c : Dev nD) : (dats m 0 c).arrAt 2 cfg0.N = V1 m c main_v0 := (dats m 0 c).arrAt_in 2 rfl _
theorem arrAt_3 (c : Dev nD) : (dats m 0 c).arrAt 3 cfg0.N = V1 m c main_v1 := (dats m 0 c).arrAt_in 3 rfl _

/-! ## The segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers through the host operations: that the core owes nothing, and its generator register. -/
abbrev R (c : Dev nD) : sProp 𝕄 :=
  iprop((∃ W, owes (c : Thread nD τ) (0 : CellTallies nD τ sig Unit) W) ∗ ∃ r, prngReg c r)

/-- The two reshapes, over the unscoped buffers at the launch contents. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- The sum and the division, over the unscoped buffers as the region left them. -/
def seg2 : Pipeline.HostSeg (Name := ℕ) (U := UR sig nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro _ h; (repeat (cases h with | head => rfl | tail _ h => ?_)); exact nomatch h) (W₂ m) R

/-- The six unscoped buffers no window reads or writes, at the region-entry contents. -/
abbrev Zc (c : Dev nD) : sProp 𝕄 :=
  iprop(pt c main_arg1 (V1 m c main_arg1) ∗ pt c main_arg2 (V1 m c main_arg2) ∗ pt c main_cst (V1 m c main_cst) ∗ pt c main_v3 (V1 m c main_v3)
    ∗ pt c main_cst_0 (V1 m c main_cst_0) ∗ pt c main_v4 (V1 m c main_v4))

set_option backward.isDefEq.respectTransparency.types false in
/-- The region: entered from what the reshapes left — the feature array split in two halves for the two windows that
    read it, the two reshaped label arrays and the output array into the pipeline, the generator register into the
    invariant, the other six buffers bypassing —, left with the halves rejoined and the output array at what the
    region wrote. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (V1 m c) ∗ R c)
  post c := iprop(StableHlo.held (c : Thread nD τ) ucRefs (W₂ m c) ∗ R c)
  X c := iprop(∃ r, prngReg c r)
  Y c := iprop(∃ r, prngReg c r)
  Z c := Zc m c
  hentry c := by
    rw [held_eq, arrays5]
    iintro ⟨⟨⟨Ha0, Ha1, Ha2, Hv0, Hv1, Hv2, Hc, Hv3, Hc0, Hv4⟩, HO, Hp⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    isplitl [Ha2]; · iexact Ha2
    isplitl [Hc]; · iexact Hc
    isplitl [Hv3]; · iexact Hv3
    isplitl [Hc0]; · iexact Hc0
    iexact Hv4
  hin c := by
    refine BIBase.Entails.trans ?_ (Cert.KernelIdeal.Hand.hin m c)
    unfold Pipeline.ΦA
    iintro ⟨Hp, -, Hr⟩
    isplitl [Hr]; · iexact Hr
    iexact Hp
  hout c := by
    refine (Cert.KernelIdeal.Hand.hout m c).trans ?_
    rw [Pipeline.ownSems0_none]; unfold Pipeline.ΦA
    iintro ⟨Hr, Hp⟩
    isplitl [Hp]; · iexact Hp
    isplitr; · iempintro
    iexact Hr
  hexit c := by
    rw [held_eq, arrays5, W₂_v2, W₂_of_ne m c main_arg0 (by decide), W₂_of_ne m c main_arg1 (by decide), W₂_of_ne m c main_arg2 (by decide),
      W₂_of_ne m c main_v0 (by decide), W₂_of_ne m c main_v1 (by decide), W₂_of_ne m c main_cst (by decide), W₂_of_ne m c main_v3 (by decide),
      W₂_of_ne m c main_cst_0 (by decide), W₂_of_ne m c main_v4 (by decide), arrAt_0, arrAt_1, arrAt_2, arrAt_3]
    iintro ⟨⟨Hl, Hr, Hv0, Hv1, Hv2⟩, HO, Hp, ⟨Ha1, Ha2, Hc, Hv3, Hc0, Hv4⟩⟩
    ihave Ha0 := (pointsTo_share (PosShare.mem_left_op_right fullShare)).2 $$ [Hl Hr]
    · isplitl [Hl] <;> iassumption
    imodintro
    isplitr [HO Hp]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    isplitr [Hp]
    · unfold Pipeline.Dat.owesAt Pipeline.owesWithin
      icases HO with ⟨%W, -, HO⟩; iexists W; iexact HO
    iexact Hp

/-- The entry function as the list of the three. -/
abbrev segs : List (Pipeline.Seg (pcfgs (F := F)) adm (dats m) () defs₀ 𝒱₀ L lv) := [.host (seg0 m), .region (reg0 m), .host (seg2 m)]

/-! ## What the buffers hold at the end -/

/-- The result: the mean of the region's output array. -/
theorem V3_v4 (c : Dev nD) : V3 m c main_v4
    = Host.divf (Host.reduceAdd ((dats m 0 c).arrAt 4 cfg0.N) (constant S_ .f32 0x00000000#32) reducesTo_S8192x1_S_d0_1 h_S_) (constant S_ .f32 0x46000000#32) := by
  show StableHlo.after hostOps1 (W₂ m c) (Proc.devRef .tc main_v4) = _
  after_results
  rw [W₂_v2]

/-- No host operation and no window writes an argument. -/
theorem V3_arg0 (c : Dev nD) : V3 m c main_arg0 = m ((c : Thread nD τ).loc main_arg0) := by
  show StableHlo.after hostOps1 (W₂ m c) (Proc.devRef .tc main_arg0) = _
  after_results
  rw [W₂_of_ne m c main_arg0 (by decide)]
  show StableHlo.after hostOps0 (V₀ m c) (Proc.devRef .tc main_arg0) = _
  after_results
theorem V3_arg1 (c : Dev nD) : V3 m c main_arg1 = m ((c : Thread nD τ).loc main_arg1) := by
  show StableHlo.after hostOps1 (W₂ m c) (Proc.devRef .tc main_arg1) = _
  after_results
  rw [W₂_of_ne m c main_arg1 (by decide)]
  show StableHlo.after hostOps0 (V₀ m c) (Proc.devRef .tc main_arg1) = _
  after_results
theorem V3_arg2 (c : Dev nD) : V3 m c main_arg2 = m ((c : Thread nD τ).loc main_arg2) := by
  show StableHlo.after hostOps1 (W₂ m c) (Proc.devRef .tc main_arg2) = _
  after_results
  rw [W₂_of_ne m c main_arg2 (by decide)]
  show StableHlo.after hostOps0 (V₀ m c) (Proc.devRef .tc main_arg2) = _
  after_results

set_option backward.isDefEq.respectTransparency.types false in
/-- At the compiled mesh, for any float values, from any memory with zero counters: every weakly fair execution of
    the entry function terminates; the result buffer holds the sum of the region's output array divided by 8192, and
    the three argument arrays are as launched. -/
theorem run_main : θ_run defs (onTc (τ := τ) (main (F := F))) ⟨m, fun _ => 0, ρ⟩ (fun r => ∀ c : Dev nD,
      r.2.mem ((c.tc : Thread nD τ).loc main_v4)
        = Host.divf (Host.reduceAdd ((dats m 0 c).arrAt 4 cfg0.N) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj (emb₁ : Emb (UR sig nD τ) 𝕄) defs₀ 𝒱₀ L lv m ρ main (segs m)
    (fun c Q => by rw [main_segs adm (dats m) () 𝒱₀ L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own ((emb₁ : Emb (UR sig nD τ) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := fun c => StableHlo.held (c : Thread nD τ) ucRefs (V3 m c))
    (hch := by
      refine ⟨fun _ => .rfl, fun _ => .rfl, fun _ => .rfl, fun c => ?_⟩
      show iprop(StableHlo.held (c : Thread nD τ) ucRefs (V3 m c) ∗ R c)
        ⊢ iprop(StableHlo.held (c : Thread nD τ) ucRefs (V3 m c) ∗ ∃ W, owes (c : Thread nD τ) (0 : CellTallies nD τ sig Unit) W)
      iintro ⟨Hh, HO, -⟩
      isplitl [Hh]; · iexact Hh
      iexact HO)
    (hinit := by
      refine Pipeline.initEach L lv fun c => ?_
      rw [show unscopedBufs c (fun b => m ((c : Thread nD τ).loc b)) = StableHlo.held (c : Thread nD τ) ucRefs (V₀ m c) from (held_ucRefs c (V₀ m c)).symm]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v4) = V3 m c main_v4 ∧ s.mem ((c : Thread nD τ).loc main_arg0) = V3 m c main_arg0
      ∧ s.mem ((c : Thread nD τ).loc main_arg1) = V3 m c main_arg1 ∧ s.mem ((c : Thread nD τ).loc main_arg2) = V3 m c main_arg2)
    (hfin := fun c s' => by
      rw [held_eq]
      iintro ⟨⟨Ha0, Ha1, Ha2, -, -, -, -, -, -, Hv4⟩, HSI⟩
      icombine HSI Ha0 gives %h0
      icombine HSI Ha1 gives %h1
      icombine HSI Ha2 gives %h2
      icombine HSI Hv4 gives %h4
      imodintro
      isplitr; · ipureintro; exact ⟨Buf.eq_of_forall_mem_univ h4, Buf.eq_of_forall_mem_univ h0, Buf.eq_of_forall_mem_univ h1, Buf.eq_of_forall_mem_univ h2⟩
      iexact HSI)
    (hQ := fun s h c => by
      obtain ⟨h4, h0, h1, h2⟩ := h c
      rw [V3_v4] at h4; rw [V3_arg0] at h0; rw [V3_arg1] at h1; rw [V3_arg2] at h2
      exact ⟨h4, h0, h1, h2⟩)

end Cert.KernelIdeal.Hand

end
-- ==== Proof.KI.Blocks.lean ====
/-
  Each input window's block at a grid point, entry by entry, in terms of the argument arrays: the row tile's features and labels are rows `(t / 16)·512 + y`, the column tile's are rows `(t mod 16)·512 + c`; the labels reach the kernel through two reshapes, a column and a row.
-/
import proofs.«167592_j69320772158191_1_alg».proof.Proof.KI.Data
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (m : (ℓ : Loc nD τ sig) → Buf (Elt F) ℓ)

/-- The grid is sixteen row tiles by sixteen column tiles, row tile major. -/
theorem coords0 (t : Fin cfg0.N) : (grid0.coords t 0).val = t.val / 16 :=
  (by decide +kernel : ∀ t : Fin grid0.N, (grid0.coords t 0).val = t.val / 16) t
theorem coords1 (t : Fin cfg0.N) : (grid0.coords t 1).val = t.val % 16 :=
  (by decide +kernel : ∀ t : Fin grid0.N, (grid0.coords t 1).val = t.val % 16) t

/-- The global row of local row `y` of the row tile at point `t`, and the global row of local row `c` of the column tile. -/
def rowIx (t : Fin cfg0.N) (y : Fin 512) : Fin 8192 := ⟨t.val / 16 * 512 + y.val, by have := t.isLt; have hN : cfg0.N = 256 := N_0; have := y.isLt; omega⟩
def colIx (t : Fin cfg0.N) (c : Fin 512) : Fin 8192 := ⟨t.val % 16 * 512 + c.val, by have := c.isLt; omega⟩

namespace Blocks

/-- The four input windows' block indices at point `t`, in closed form: the feature and label row tiles follow
    `t / 16`, the column tiles `t mod 16`; the other axis has one block. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-- Neither reshape writes the feature array: the region finds it as launched. -/
theorem V_arg0 (c : Dev nD) : V m c main_arg0 = m ((c.tc : Thread nD τ).loc main_arg0) :=
  StableHlo.after_of_forall_not_mem (b := Proc.devRef .tc main_arg0) hostOps0 (V₀ m c) (by
    intro op hop
    simp only [List.mem_cons, List.mem_nil_iff, or_false] at hop
    rcases hop with rfl | rfl <;>
      simp only [StableHlo.reshape_writes, Finset.mem_singleton] <;>
      exact StableHlo.devRef_ne_of_ne (by decide))

/-- The labels as a column: the label vector cast to `[8192, 1]`. -/
theorem V_v0 (c : Dev nD) :
    (V m c main_v0 : S8192x1.Idx → Elt F .i32)
      = shapeCast S8192x1 (m ((c.tc : Thread nD τ).loc main_arg1) : Vec F S8192 .i32) shapeCasts_S8192_S8192x1 := by
  show StableHlo.after hostOps0 _ (Proc.devRef .tc main_v0) = _
  after_results
  rfl

/-- The labels as a row: the label vector cast to `[1, 8192]`. -/
theorem V_v1 (c : Dev nD) :
    (V m c main_v1 : S1x8192.Idx → Elt F .i32)
      = shapeCast S1x8192 (m ((c.tc : Thread nD τ).loc main_arg1) : Vec F S8192 .i32) shapeCasts_S8192_S1x8192 := by
  show StableHlo.after hostOps0 _ (Proc.devRef .tc main_v1) = _
  after_results
  rfl

end Blocks

theorem iblk0_apply (c : Dev nD) (t : Fin cfg0.N) (y : Fin 512) (k : Fin 256) :
    (iblk m c 0 t : Vec F S512x256 .f32) (ix2 y k) = (m ((c.tc : Thread nD τ).loc main_arg0) : Vec F S8192x256 .f32) (ix2 (rowIx t y) k) := by
  obtain ⟨e0, e1, -⟩ := Blocks.idx_facts t
  show V m c main_arg0 (((cfg0.win 0).blk t).view.emb (ix2 y k)) = _
  rw [Blocks.V_arg0]
  refine congrArg _ ?_
  funext a
  apply Fin.ext
  match a with
  | ⟨0, _⟩ => show win0_0.index t (0 : Fin 2) * 512 + 1 * y.val = t.val / 16 * 512 + y.val; omega
  | ⟨1, _⟩ => show win0_0.index t (1 : Fin 2) * 256 + 1 * k.val = k.val; omega
theorem iblk1_apply (c : Dev nD) (t : Fin cfg0.N) (cc : Fin 512) (k : Fin 256) :
    (iblk m c 1 t : Vec F S512x256 .f32) (ix2 cc k) = (m ((c.tc : Thread nD τ).loc main_arg0) : Vec F S8192x256 .f32) (ix2 (colIx t cc) k) := by
  obtain ⟨-, -, e0, e1, -⟩ := Blocks.idx_facts t
  show V m c main_arg0 (((cfg0.win 1).blk t).view.emb (ix2 cc k)) = _
  rw [Blocks.V_arg0]
  refine congrArg _ ?_
  funext a
  apply Fin.ext
  match a with
  | ⟨0, _⟩ => show win0_1.index t (0 : Fin 2) * 512 + 1 * cc.val = t.val % 16 * 512 + cc.val; omega
  | ⟨1, _⟩ => show win0_1.index t (1 : Fin 2) * 256 + 1 * k.val = k.val; omega
theorem iblk2_apply (c : Dev nD) (t : Fin cfg0.N) (y : Fin 512) :
    (iblk m c 2 t : Vec F S512x1 .i32) (ix2 y (0 : Fin 1)) = (m ((c.tc : Thread nD τ).loc main_arg1) : Vec F S8192 .i32) (ix1 (rowIx t y)) := by
  obtain ⟨-, -, -, -, e0, e1, -⟩ := Blocks.idx_facts t
  show V m c main_v0 (((cfg0.win 2).blk t).view.emb (ix2 y (0 : Fin 1))) = _
  rw [Blocks.V_v0]
  refine shapeCast_apply _ _ _ _ ?_
  show (S8192.rowMajor (ix1 (rowIx t y))).val
    = (S8192x1.rowMajor (((cfg0.win 2).blk t).view.emb (ix2 y (0 : Fin 1)))).val
  rw [Shape.rowMajor_val_one, Shape.rowMajor_val_two]
  show t.val / 16 * 512 + y.val
    = (win0_2.index t (0 : Fin 2) * 512 + 1 * y.val) * 1 + (win0_2.index t (1 : Fin 2) * 1 + 1 * 0)
  omega
theorem iblk3_apply (c : Dev nD) (t : Fin cfg0.N) (cc : Fin 512) :
    (iblk m c 3 t : Vec F S1x512 .i32) (ix2 (0 : Fin 1) cc) = (m ((c.tc : Thread nD τ).loc main_arg1) : Vec F S8192 .i32) (ix1 (colIx t cc)) := by
  obtain ⟨-, -, -, -, -, -, e0, e1⟩ := Blocks.idx_facts t
  show V m c main_v1 (((cfg0.win 3).blk t).view.emb (ix2 (0 : Fin 1) cc)) = _
  rw [Blocks.V_v1]
  refine shapeCast_apply _ _ _ _ ?_
  show (S8192.rowMajor (ix1 (colIx t cc))).val
    = (S1x8192.rowMajor (((cfg0.win 3).blk t).view.emb (ix2 (0 : Fin 1) cc))).val
  rw [Shape.rowMajor_val_one, Shape.rowMajor_val_two]
  show t.val % 16 * 512 + cc.val
    = (win0_3.index t (0 : Fin 2) * 1 + 1 * 0) * 8192 + (win0_3.index t (1 : Fin 2) * 512 + 1 * cc.val)
  omega

end Cert.KernelIdeal.Hand

end
-- ==== Proof.Spec.lean ====
/-
  The mathematics of the two programs, with no program in sight.

  A row `r` of the feature matrix is scored against every row `j` by the negated inner product, scaled:
  the kernel multiplies by the reciprocal of the temperature, the reference divides by the temperature.
  Pairs with equal labels, the diagonal excluded, are the positives; the other off-diagonal pairs are the
  negatives. The loss of row `r` is the mean over its positives of
  `score − max − log (Σ_pos exp(score − max) + (Σ_neg exp(score − max)) / (#neg + ε))`.

  The reference computes the row maximum and the sums over all 8192 columns at once (`refRow`).  The kernel walks
  the columns in sixteen tiles of 512, keeping a running maximum and rescaling the two exponential sums
  whenever the maximum grows (`step`, `stateAt`), and forms the row's loss from the final state (`outF`).
-/
import Idealize.ShloMosaic.PureOps.Ideal

noncomputable section

namespace Cert.Spec

open Idealize.ShloMosaic

/-- The feature matrix and the label vector, as plain functions of plain indices. -/
abbrev Feat := Fin 8192 → Fin 256 → EReal
abbrev Lab := Fin 8192 → BitVec 32

/-- The reciprocal of the temperature the reference divides by: the kernel's named scale. -/
def kappa : EReal := ((134217728 / 9395241 : ℝ) : EReal)
/-- The temperature, as the real number its f32 word denotes. -/
def temp : EReal := ((9395241 / 134217728 : ℝ) : EReal)
/-- The two small constants both programs carry, as the words they are printed with. -/
def e8 : EReal := Ideal.ofBits .f32 0x322BCC77#32
def e6 : EReal := Ideal.ofBits .f32 0x358637BD#32
/-- The divisor of the final mean. -/
def n8192 : EReal := Ideal.ofBits .f32 0x46000000#32

/-- The inner product of rows `r` and `j`. -/
def dot (x : Feat) (r j : Fin 8192) : EReal := ∑ k : Fin 256, x r k * x j k

/-- The kernel's score: `(0 − ⟨x_r, x_j⟩) · κ`. -/
def sK (x : Feat) (r j : Fin 8192) : EReal := (0 - dot x r j) * kappa
/-- The reference's score: `(−⟨x_r, x_j⟩) / T`. -/
def sR (x : Feat) (r j : Fin 8192) : EReal := Ideal.div (-(dot x r j)) temp

/-- The diagonal, its complement, the positives and the negatives, as 0/1 weights. -/
def eye (r j : Fin 8192) : EReal := if r = j then 1 else 0
def lm (r j : Fin 8192) : EReal := 1 - eye r j
def pos (l : Lab) (r j : Fin 8192) : EReal := if l r = l j then 1 else 0
def mk (l : Lab) (r j : Fin 8192) : EReal := pos l r j * lm r j
def ng (l : Lab) (r j : Fin 8192) : EReal := lm r j - mk l r j

/-- Column `c` of tile `kt`. -/
def col (kt : Fin 16) (c : Fin 512) : Fin 8192 := ⟨kt.val * 512 + c.val, by have := kt.isLt; have := c.isLt; omega⟩

/-- What the kernel keeps per row between tiles: the running maximum, the two rescaled exponential sums, the
    count of negatives, the count of positives, and the sum of the positives' raw scores. -/
structure St where
  m : EReal
  sp : EReal
  sn : EReal
  cn : EReal
  mp : EReal
  sr : EReal

/-- The state before the first tile. -/
def St.init : St := ⟨⊥, 0, 0, 0, 0, 0⟩

/-- One tile's update of a row's state, from the row's scores `s`, positive weights `wm` and negative weights `wn`. -/
def step (s wm wn : Fin 8192 → EReal) (kt : Fin 16) (st : St) : St :=
  let mn := max st.m (⨆ c : Fin 512, s (col kt c))
  let al := Ideal.exp (st.m - mn)
  { m := mn
    sp := al * st.sp + ∑ c : Fin 512, Ideal.exp (s (col kt c) - mn) * wm (col kt c)
    sn := al * st.sn + ∑ c : Fin 512, Ideal.exp (s (col kt c) - mn) * wn (col kt c)
    cn := st.cn + ∑ c : Fin 512, wn (col kt c)
    mp := st.mp + ∑ c : Fin 512, wm (col kt c)
    sr := st.sr + ∑ c : Fin 512, wm (col kt c) * s (col kt c) }

/-- The state after the first `n` tiles (`n ≤ 16`; constant from 16 on). -/
def stateAt (s wm wn : Fin 8192 → EReal) : Nat → St
  | 0 => St.init
  | n + 1 => if h : n < 16 then step s wm wn ⟨n, h⟩ (stateAt s wm wn n) else stateAt s wm wn n

/-- The row's loss from the final state, operation by operation as the kernel's last tile computes it. -/
def outF (st : St) : EReal :=
  Ideal.div ((st.sr - st.mp * st.m) - st.mp * Ideal.log (st.sp + Ideal.div st.sn (st.cn + e8)))
    (if Ideal.cmp .olt st.mp e6 = 1#1 then 1 else st.mp) * 1

/-- The kernel's value for row `r`. -/
def kerRow (x : Feat) (l : Lab) (r : Fin 8192) : EReal :=
  outF (stateAt (sK x r) (mk l r) (ng l r) 16)

/-- The reference's value for row `r`, operation by operation. -/
def refRow (x : Feat) (l : Lab) (r : Fin 8192) : EReal :=
  let a : Fin 8192 → EReal := fun j => sR x r j
  let M : EReal := ⨆ j : Fin 8192, a j
  let lg : Fin 8192 → EReal := fun j => a j - M
  let E : Fin 8192 → EReal := fun j => Ideal.exp (lg j)
  let cn : EReal := ∑ j : Fin 8192, ng l r j
  let sn : EReal := ∑ j : Fin 8192, E j * ng l r j
  let sp : EReal := ∑ j : Fin 8192, E j * mk l r j
  let L : EReal := Ideal.log (sp + Ideal.div sn (cn + e8))
  let mpp : EReal := ∑ j : Fin 8192, mk l r j
  1 * Ideal.div (∑ j : Fin 8192, mk l r j * (lg j - L)) (if Ideal.cmp .olt mpp e6 = 1#1 then 1 else mpp)

/-- The mean over the rows, as both programs' host operations form it: the sum, divided by 8192. -/
def total (row : Fin 8192 → EReal) : EReal := Ideal.div (∑ r : Fin 8192, row r) n8192

/-- Every entry of the feature matrix is a real number. -/
def Finite (x : Feat) : Prop := ∀ r k, ∃ v : ℝ, x r k = (v : EReal)

end Cert.Spec

end
-- ==== Proof.KI.TileScore.lean ====
/-
  The score tile and its row maxima, entry by entry: the scaled negated inner products of the row tile's rows with the column tile's rows.
-/
import proofs.«167592_j69320772158191_1_alg».proof.Proof.Gen.KernelIdeal.Skeleton
import proofs.«167592_j69320772158191_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

namespace TileScore

/-! ### The product's operand indices, axis by axis -/

theorem lhs_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The matrix product onto a zero accumulator, entry `(y, c)`: the sum over the contracted axis of the products. -/
theorem matmul_ix2 (a : FVec Ideal S512x256 .bf16) (b : FVec Ideal S256x512 .bf16) (y c : Fin 512) :
    matmul dot_S512x256_S256x512_S512x512_1_0_0_1_n_n none a b (constant (F := Ideal) S512x512 .f32 0x00000000#32) (ix2 y c)
      = ∑ k : Fin 256, a (ix2 y k) * b (ix2 k c) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 y c) ((contrEquiv1 dot_S512x256_S256x512_S512x512_1_0_0_1_n_n 256 rfl rfl).symm k) = ix2 y k := funext fun d => Fin.ext (by
    match d with
    | ⟨0, _⟩ => exact lhs_0 _ _
    | ⟨1, _⟩ => exact (lhs_1 _ _).trans hk)
  have er : dot_S512x256_S256x512_S512x512_1_0_0_1_n_n.rhsIdx (ix2 y c) ((contrEquiv1 dot_S512x256_S256x512_S512x512_1_0_0_1_n_n 256 rfl rfl).symm k) = ix2 k c := funext fun d => Fin.ext (by
    match d with
    | ⟨0, _⟩ => exact (rhs_0 _ _).trans hk
    | ⟨1, _⟩ => exact rhs_1 _ _)
  rw [el, er]

/-- The named reciprocal temperature is the rational the table gives it. -/
theorem kappa_named : Named.named (F := Ideal) κ "inv_temperature" (φ := .f32) 0x41649249#32 = Cert.Spec.kappa :=
  IdealRules.named_const.ideal_named_scalar _ _ _ _ rfl

/-! ### The row maximum -/

/-- The accumulator of the row maximum is `−∞`. -/
theorem ofBits_neg_inf : Ideal.ofBits .f32 0xFF800000#32 = ⊥ := by simp [Ideal.ofBits, Ideal.ieee]

/-- Folding `max` from `⊥` over a whole finite type is the supremum. -/
theorem fold_max_bot_eq_iSup {ι : Type} [Fintype ι] (f : ι → EReal) :
    (Finset.univ : Finset ι).fold max ⊥ f = ⨆ i, f i :=
  le_antisymm ((Finset.fold_max_le _).2 ⟨bot_le, fun x _ => le_iSup f x⟩)
    (iSup_le fun c => (Finset.le_fold_max _).2 (Or.inr ⟨c, Finset.mem_univ c, le_rfl⟩))

/-- The maximum over the lanes of a `[512, 512]` tile, from `−∞`, at row `y`: the supremum of the row. -/
theorem rowmax_ix1 (src : FVec Ideal S512x512 .f32) (hφ : FKind.Formats .f32)
    (hacc : (0xFF800000#32 : BitVec FTy.f32.bits) = FKind.maximumf.neutral .f32 hφ) (y : Fin 512) :
    multiReduction (F := Ideal) .maximumf [1] S512 src 0xFF800000#32 reduces_S512x512_S512 hφ hacc (ix1 y)
      = ⨆ c : Fin 512, src (ix2 y c) := by
  refine (Ideal.multiReduction_maximumf_single src _ reduces_S512x512_S512 hφ hacc (ix1 y)).trans ?_
  have hl : ∀ k : Fin 512, reduces_S512x512_S512.lift (ix1 y) k = ix2 y k := fun k => funext fun d => Fin.ext (by
    match d with
    | ⟨0, _⟩ => rfl
    | ⟨1, _⟩ => rfl)
  rw [show FloatOps.ofBits (F := Ideal) .f32 0xFF800000#32 = (⊥ : EReal) from ofBits_neg_inf]
  exact (fold_max_bot_eq_iSup _).trans (iSup_congr fun k => congrArg src (hl k))

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end TileScore

open TileScore

/-- Entry `(y, c)` of the score tile: the negated inner product of row `y` of the row tile with row `c` of the column
    tile, times the named reciprocal temperature. -/
theorem pay12_apply (x0 x1 : Vec Ideal S512x256 .f32) (y c : Fin 512) :
    k0_pay12 (F := Ideal) x0 x1 (ix2 y c) = (0 - ∑ k : Fin 256, x0 (ix2 y k) * x1 (ix2 c k)) * Cert.Spec.kappa := by
  unfold k0_pay12
  dsimp only
  refine (mulf_apply _ _ _).trans (congrArg₂ (· * ·) ?_ kappa_named)
  refine (subf_apply _ _ _).trans (congrArg₂ (· - ·) Ideal.ofBits_zero_f32 ((matmul_ix2 _ _ y c).trans ?_))
  exact Finset.sum_congr rfl fun k _ => congrArg₂ (· * ·) rfl (transpose_ix2_apply _ _ k c)

/-- Row `y` of the tile's row maxima: the supremum of the row's scores. -/
theorem pay16_apply (x0 x1 : Vec Ideal S512x256 .f32) (y : Fin 512) :
    k0_pay16 (F := Ideal) x0 x1 (ix2 y (0 : Fin 1)) = ⨆ c : Fin 512, k0_pay12 (F := Ideal) x0 x1 (ix2 y c) := by
  unfold k0_pay16
  dsimp only
  exact (shapeCast_a_a1_apply _ _ y 0).trans (rowmax_ix1 _ _ _ y)

end Cert.KernelIdeal.Hand

end
-- ==== Proof.KI.TileMask.lean ====
/-
  The two weight tiles (positives, negatives), entry by entry, and the two layout facts every row sum of the kernel uses: a lane sum onto a zero accumulator read at a row, and a column broadcast across the lanes.
-/
import proofs.«167592_j69320772158191_1_alg».proof.Proof.Gen.KernelIdeal.Skeleton
import proofs.«167592_j69320772158191_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Cert.KernelIdeal Cert.KernelIdeal.Gen Idealize.ShloMosaic Idealize.ShloMosaic.ValueIdx

/-- The diagonal weight of local row `y` against local column `c` at grid point `i`: 1 where the global row and the
    global column coincide. -/
def eyeT (i : grid0.Coords) (y c : Fin 512) : EReal := if (i 0).val * 512 + y.val = (i 1).val * 512 + c.val then 1 else 0

namespace TileMask

/-- A tile's offset plus a local coordinate, as 32-bit words: the word of the natural number. -/
theorem word_lin (a b : Nat) : BitVec.ofNat 32 a * 512#32 + BitVec.ofNat 32 b = BitVec.ofNat 32 (a * 512 + b) := by
  rw [BitVec.ofNat_add, BitVec.ofNat_mul]

/-- Below `8192` two words are equal exactly when the numbers are: nothing wraps around. -/
theorem ofNat_inj_small (m m' : Nat) (h : m < 8192) (h' : m' < 8192) :
    BitVec.ofNat 32 m = BitVec.ofNat 32 m' ↔ m = m' := by
  constructor
  · intro e
    have e' := congrArg BitVec.toNat e
    simp only [BitVec.toNat_ofNat] at e'
    omega
  · intro e
    rw [e]

theorem bit_true : ((BitVec.ofBool true).setWidth 32).toInt = 1 := by decide
theorem bit_false : ((BitVec.ofBool false).setWidth 32).toInt = 0 := by decide

/-- A one-bit condition, widened to 32 bits and read as a signed integer, is the indicator of the condition. -/
theorem bit_real (b : Bool) :
    ((((BitVec.ofBool b).setWidth 32).toInt : ℝ) : EReal) = if b = true then 1 else 0 := by
  cases b
  · rw [bit_false]; simp
  · rw [bit_true]; simp

/-- Entry `(y, c)` of the off-diagonal weights: one minus the diagonal weight. -/
theorem pay13_apply (i : grid0.Coords) (y c : Fin 512) :
    k0_pay13 (F := Ideal) i (ix2 y c) = 1 - eyeT i y c := by
  have hq : (i 0).val < 16 := (i 0).isLt
  have hk : (i 1).val < 16 := (i 1).isLt
  have e : k0_pay13 (F := Ideal) i (ix2 y c)
      = Ideal.ofBits .f32 0x3F800000#32
        - ((((BitVec.ofBool
            (BitVec.ofNat 32 (i 0).val * 512#32 + iota .tc S512x512 32 [0] Facts₀.iota_S512x512_d0_w32 (ix2 y c)
              == BitVec.ofNat 32 (i 1).val * 512#32 + iota .tc S512x512 32 [1] Facts₀.iota_S512x512_d1_w32 (ix2 y c))).setWidth 32).toInt : ℝ) : EReal) := rfl
  rw [e, iota_single_apply, iota_single_apply, Ideal.ofBits_one_f32, bit_real]
  unfold eyeT
  have h0 : ((ix2 y c : S512x512.Idx) 0).val = y.val := rfl
  have h1 : ((ix2 y c : S512x512.Idx) 1).val = c.val := rfl
  rw [h0, h1, word_lin, word_lin]
  congr 1
  have := y.isLt
  have := c.isLt
  have hiff := ofNat_inj_small ((i 0).val * 512 + y.val) ((i 1).val * 512 + c.val) (by omega) (by omega)
  by_cases hd : (i 0).val * 512 + y.val = (i 1).val * 512 + c.val
  · rw [if_pos hd, if_pos (by rw [beq_iff_eq]; exact hiff.mpr hd)]
  · rw [if_neg hd, if_neg (by rw [beq_iff_eq]; exact fun h => hd (hiff.mp h))]

/-- A column broadcast across the lanes, read at `(y, c)`: the column's entry at row `y` (any element type). -/
theorem bcolI_apply {α : Type} (v : S512x1.Idx → α) (h : S512x1.Broadcasts S512x512) (y c : Fin 512) :
    broadcastTo S512x512 v h (ix2 y c) = v (ix2 y (0 : Fin 1)) := by
  refine broadcastTo_apply v h (ix2 y c) (ix2 y (0 : Fin 1)) fun ax => ?_
  match ax with
  | ⟨0, _⟩ => rfl
  | ⟨1, _⟩ => rfl

end TileMask

/-- Entry `(y, c)` of the positives' weights: equal labels, off the diagonal. -/
theorem pay14_apply (i : grid0.Coords) (l2 : Vec Ideal S512x1 .i32) (l3 : Vec Ideal S1x512 .i32) (y c : Fin 512) :
    k0_pay14 (F := Ideal) i l2 l3 (ix2 y c)
      = (if l2 (ix2 y (0 : Fin 1)) = l3 (ix2 (0 : Fin 1) c) then (1 : EReal) else 0) * (1 - eyeT i y c) := by
  have e : k0_pay14 (F := Ideal) i l2 l3 (ix2 y c)
      = ((((BitVec.ofBool
            ((broadcastTo S512x512 (shapeCast S512x1 l2 Facts₀.shapeCasts_S512x1_S512x1 : IVec S512x1 32)
                Facts₀.broadcasts_S512x1_S512x512 : IVec S512x512 32) (ix2 y c)
              == (broadcastTo S512x512 (shapeCast S1x512 l3 Facts₀.shapeCasts_S1x512_S1x512 : IVec S1x512 32)
                Facts₀.broadcasts_S1x512_S512x512 : IVec S512x512 32) (ix2 y c))).setWidth 32).toInt : ℝ) : EReal)
        * k0_pay13 (F := Ideal) i (ix2 y c) := rfl
  rw [e, TileMask.pay13_apply, TileMask.bit_real, shapeCast_self, shapeCast_self, TileMask.bcolI_apply,
    broadcastTo_1b_ab_apply]
  congr 1
  by_cases hd : l2 (ix2 y (0 : Fin 1)) = l3 (ix2 (0 : Fin 1) c)
  · rw [if_pos hd, if_pos (by rw [beq_iff_eq]; exact hd)]
  · rw [if_neg hd, if_neg (by rw [beq_iff_eq]; exact hd)]

/-- Entry `(y, c)` of the negatives' weights: off the diagonal and not a positive. -/
theorem pay15_apply (i : grid0.Coords) (l2 : Vec Ideal S512x1 .i32) (l3 : Vec Ideal S1x512 .i32) (y c : Fin 512) :
    k0_pay15 (F := Ideal) i l2 l3 (ix2 y c) = (1 - eyeT i y c) - k0_pay14 (F := Ideal) i l2 l3 (ix2 y c) := by
  have e : k0_pay15 (F := Ideal) i l2 l3 (ix2 y c)
      = k0_pay13 (F := Ideal) i (ix2 y c) - k0_pay14 (F := Ideal) i l2 l3 (ix2 y c) := rfl
  rw [e, TileMask.pay13_apply]

/-- A lane sum onto the zero accumulator, kept as a column, read at row `y`: the sum of the row. -/
theorem rowsum_apply (v : FVec Ideal S512x512 .f32) (y : Fin 512) :
    (shapeCast S512x1 (multiReduction (F := Ideal) .add [1] S512 v 0x00000000#32 Facts₀.reduces_S512x512_S512 (.inl rfl) rfl) Facts₀.shapeCasts_S512_S512x1 : FVec Ideal S512x1 .f32) (ix2 y (0 : Fin 1))
      = ∑ c : Fin 512, v (ix2 y c) := by
  refine (shapeCast_apply _ Facts₀.shapeCasts_S512_S512x1 (ix2 y (0 : Fin 1)) (ix1 y) ?_).trans ?_
  · rw [Shape.rowMajor_val_one, Shape.rowMajor_val_two]
    show y.val = y.val * 1 + 0
    omega
  · refine (Ideal.multiReduction_add_single v 0x00000000#32 Facts₀.reduces_S512x512_S512 (.inl rfl) rfl (ix1 y)).trans ?_
    refine Finset.sum_congr rfl fun c _ => congrArg v ?_
    funext a
    match a with
    | ⟨0, _⟩ => exact Fin.ext rfl
    | ⟨1, _⟩ => exact Fin.ext rfl

/-- A column broadcast across the lanes, read at `(y, c)`: the column's entry at row `y`. -/
theorem bcol_apply (v : FVec Ideal S512x1 .f32) (y c : Fin 512) :
    (broadcastTo S512x512 v Facts₀.broadcasts_S512x1_S512x512 : FVec Ideal S512x512 .f32) (ix2 y c) = v (ix2 y (0 : Fin 1)) :=
  TileMask.bcolI_apply v _ y c

/-- A cast of a column to its own shape is the column. -/
theorem castcol_apply (v : FVec Ideal S512x1 .f32) (j : S512x1.Idx) :
    (shapeCast S512x1 v Facts₀.shapeCasts_S512x1_S512x1 : FVec Ideal S512x1 .f32) j = v j :=
  congrFun (shapeCast_self v _) j

end Cert.KernelIdeal.Hand

end
-- ==== Proof.KI.TileValue.lean ====
/-
  One grid point's update, row by row, is the specification's tile step.
-/
import proofs.«167592_j69320772158191_1_alg».proof.Proof.KI.Step
import proofs.«167592_j69320772158191_1_alg».proof.Proof.KI.TileScore
import proofs.«167592_j69320772158191_1_alg».proof.Proof.KI.TileMask
import proofs.«167592_j69320772158191_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.ValueIdx

/-- Row `y` of the six columns, as the specification's state. -/
def rowOf (p : Sc Ideal) (y : Fin 512) : Cert.Spec.St :=
  ⟨p.s0 (ix2 y (0 : Fin 1)), p.s1 (ix2 y (0 : Fin 1)), p.s2 (ix2 y (0 : Fin 1)), p.s3 (ix2 y (0 : Fin 1)), p.s4 (ix2 y (0 : Fin 1)), p.s5 (ix2 y (0 : Fin 1))⟩

namespace TileValue

/-- Two states with equal fields are equal. -/
theorem st_congr {a a' b b' c c' d d' e e' f f' : EReal} (ha : a = a') (hb : b = b') (hc : c = c') (hd : d = d')
    (he : e = e') (hf : f = f') : Cert.Spec.St.mk a b c d e f = Cert.Spec.St.mk a' b' c' d' e' f' := by
  subst ha hb hc hd he hf; rfl

/-- The word of the negative infinity is the bottom of the extended reals. -/
theorem ofBits_neg_inf : Ideal.ofBits .f32 0xFF800000#32 = (⊥ : EReal) := by simp [Ideal.ofBits, Ideal.ieee]

/-! ### The reset columns, entry by entry -/

theorem pay6_apply (j : S512x1.Idx) : k0_pay6 (F := Ideal) j = (⊥ : EReal) := by
  unfold k0_pay6
  refine (castcol_apply _ j).trans ?_
  exact ofBits_neg_inf

theorem pay7_apply (j : S512x1.Idx) : k0_pay7 (F := Ideal) j = (0 : EReal) := by
  unfold k0_pay7
  refine (castcol_apply _ j).trans ?_
  exact Ideal.ofBits_zero_f32

theorem pay8_apply (j : S512x1.Idx) : k0_pay8 (F := Ideal) j = (0 : EReal) := by
  unfold k0_pay8
  refine (castcol_apply _ j).trans ?_
  exact Ideal.ofBits_zero_f32

theorem pay9_apply (j : S512x1.Idx) : k0_pay9 (F := Ideal) j = (0 : EReal) := by
  unfold k0_pay9
  refine (castcol_apply _ j).trans ?_
  exact Ideal.ofBits_zero_f32

theorem pay10_apply (j : S512x1.Idx) : k0_pay10 (F := Ideal) j = (0 : EReal) := by
  unfold k0_pay10
  refine (castcol_apply _ j).trans ?_
  exact Ideal.ofBits_zero_f32

theorem pay11_apply (j : S512x1.Idx) : k0_pay11 (F := Ideal) j = (0 : EReal) := by
  unfold k0_pay11
  refine (castcol_apply _ j).trans ?_
  exact Ideal.ofBits_zero_f32

/-! ### The update's payloads at a row, over arbitrary tiles and columns -/

/-- The new maximum at an entry: the larger of the kept one and the tile's. -/
theorem pay17_apply (v38 v39 : FVec Ideal S512x1 .f32) (j : S512x1.Idx) :
    k0_pay17 (F := Ideal) v38 v39 j = max (v39 j) (v38 j) := rfl

/-- The rescaling factor at an entry: the exponential of the kept maximum minus the new one. -/
theorem pay18_apply (v38 v39 : FVec Ideal S512x1 .f32) (j : S512x1.Idx) :
    k0_pay18 (F := Ideal) v38 v39 j = Ideal.exp (v39 j - max (v39 j) (v38 j)) := rfl

/-- The shifted exponential at `(y, c)`: the score minus the row's new maximum, exponentiated. -/
theorem pay19_apply (v12 : FVec Ideal S512x512 .f32) (v38 v39 : FVec Ideal S512x1 .f32) (y c : Fin 512) :
    k0_pay19 (F := Ideal) v12 v38 v39 (ix2 y c)
      = Ideal.exp (v12 (ix2 y c) - max (v39 (ix2 y (0 : Fin 1))) (v38 (ix2 y (0 : Fin 1)))) := by
  unfold k0_pay19
  show Ideal.exp (v12 (ix2 y c) - _) = _
  rw [bcol_apply]
  rfl

/-- The stored maximum at row `y`. -/
theorem pay24_row (v38 v39 : FVec Ideal S512x1 .f32) (y : Fin 512) :
    k0_pay24 (F := Ideal) v38 v39 (ix2 y (0 : Fin 1)) = max (v39 (ix2 y (0 : Fin 1))) (v38 (ix2 y (0 : Fin 1))) := by
  unfold k0_pay24
  exact castcol_apply _ _

/-- The stored sum of the positives' exponentials at row `y`: the kept sum rescaled, plus the tile's. -/
theorem pay25_row (v12 v35 : FVec Ideal S512x512 .f32) (v38 v39 v48 : FVec Ideal S512x1 .f32) (y : Fin 512) :
    k0_pay25 (F := Ideal) v12 v35 v38 v39 v48 (ix2 y (0 : Fin 1))
      = Ideal.exp (v39 (ix2 y (0 : Fin 1)) - max (v39 (ix2 y (0 : Fin 1))) (v38 (ix2 y (0 : Fin 1)))) * v48 (ix2 y (0 : Fin 1))
        + ∑ c : Fin 512, Ideal.exp (v12 (ix2 y c) - max (v39 (ix2 y (0 : Fin 1))) (v38 (ix2 y (0 : Fin 1)))) * v35 (ix2 y c) := by
  unfold k0_pay25
  refine (castcol_apply _ _).trans ?_
  refine (addf_apply _ _ _).trans ?_
  refine congrArg₂ (· + ·) rfl ?_
  refine (rowsum_apply _ y).trans ?_
  refine Finset.sum_congr rfl fun c _ => ?_
  refine (mulf_apply _ _ _).trans ?_
  rw [pay19_apply]

/-- The sum of the negatives' exponentials at row `y`, likewise. -/
theorem pay20_row (v12 v36 : FVec Ideal S512x512 .f32) (v38 v39 v53 : FVec Ideal S512x1 .f32) (y : Fin 512) :
    k0_pay1 (F := Ideal) (k0_pay20 (F := Ideal) v12 v36 v38 v39 v53) (ix2 y (0 : Fin 1))
      = Ideal.exp (v39 (ix2 y (0 : Fin 1)) - max (v39 (ix2 y (0 : Fin 1))) (v38 (ix2 y (0 : Fin 1)))) * v53 (ix2 y (0 : Fin 1))
        + ∑ c : Fin 512, Ideal.exp (v12 (ix2 y c) - max (v39 (ix2 y (0 : Fin 1))) (v38 (ix2 y (0 : Fin 1)))) * v36 (ix2 y c) := by
  unfold k0_pay1 k0_pay20
  refine (castcol_apply _ _).trans ?_
  refine (addf_apply _ _ _).trans ?_
  refine congrArg₂ (· + ·) rfl ?_
  refine (rowsum_apply _ y).trans ?_
  refine Finset.sum_congr rfl fun c _ => ?_
  refine (mulf_apply _ _ _).trans ?_
  rw [pay19_apply]

/-- The count of negatives at row `y`: the kept count plus the tile's. -/
theorem pay21_row (v36 : FVec Ideal S512x512 .f32) (v58 : FVec Ideal S512x1 .f32) (y : Fin 512) :
    k0_pay2 (F := Ideal) (k0_pay21 (F := Ideal) v36 v58) (ix2 y (0 : Fin 1))
      = v58 (ix2 y (0 : Fin 1)) + ∑ c : Fin 512, v36 (ix2 y c) := by
  unfold k0_pay2 k0_pay21
  refine (castcol_apply _ _).trans ?_
  refine (addf_apply _ _ _).trans ?_
  exact congrArg₂ (· + ·) rfl (rowsum_apply _ y)

/-- The count of positives at row `y`. -/
theorem pay22_row (v35 : FVec Ideal S512x512 .f32) (v62 : FVec Ideal S512x1 .f32) (y : Fin 512) :
    k0_pay3 (F := Ideal) (k0_pay22 (F := Ideal) v35 v62) (ix2 y (0 : Fin 1))
      = v62 (ix2 y (0 : Fin 1)) + ∑ c : Fin 512, v35 (ix2 y c) := by
  unfold k0_pay3 k0_pay22
  refine (castcol_apply _ _).trans ?_
  refine (addf_apply _ _ _).trans ?_
  exact congrArg₂ (· + ·) rfl (rowsum_apply _ y)

/-- The sum of the positives' raw scores at row `y`. -/
theorem pay23_row (v12 v35 : FVec Ideal S512x512 .f32) (v66 : FVec Ideal S512x1 .f32) (y : Fin 512) :
    k0_pay4 (F := Ideal) (k0_pay23 (F := Ideal) v12 v35 v66) (ix2 y (0 : Fin 1))
      = v66 (ix2 y (0 : Fin 1)) + ∑ c : Fin 512, v35 (ix2 y c) * v12 (ix2 y c) := by
  unfold k0_pay4 k0_pay23
  refine (castcol_apply _ _).trans ?_
  refine (addf_apply _ _ _).trans ?_
  refine congrArg₂ (· + ·) rfl ?_
  refine (rowsum_apply _ y).trans ?_
  exact Finset.sum_congr rfl fun c _ => mulf_apply _ _ _

end TileValue

open TileValue

/-- The reset columns are the specification's initial state. -/
theorem rowOf_reset (y : Fin 512) : rowOf (scReset (F := Ideal)) y = Cert.Spec.St.init :=
  st_congr (pay6_apply (ix2 y (0 : Fin 1))) (pay7_apply (ix2 y (0 : Fin 1))) (pay8_apply (ix2 y (0 : Fin 1)))
    (pay9_apply (ix2 y (0 : Fin 1))) (pay10_apply (ix2 y (0 : Fin 1))) (pay11_apply (ix2 y (0 : Fin 1)))

/-- One point's update of row `y` is one specification step, for any row functions `s`, `wm`, `wn` that agree on
    tile `kt` with what the point's blocks give. -/
theorem rowOf_step (i : grid0.Coords) (x0 x1 : Vec Ideal S512x256 .f32) (l2 : Vec Ideal S512x1 .i32) (l3 : Vec Ideal S1x512 .i32)
    (p : Sc Ideal) (y : Fin 512) (s wm wn : Fin 8192 → EReal) (kt : Fin 16)
    (hs : ∀ c : Fin 512, s (Cert.Spec.col kt c) = (0 - ∑ k : Fin 256, x0 (ix2 y k) * x1 (ix2 c k)) * Cert.Spec.kappa)
    (hwm : ∀ c : Fin 512, wm (Cert.Spec.col kt c)
        = (if l2 (ix2 y (0 : Fin 1)) = l3 (ix2 (0 : Fin 1) c) then (1 : EReal) else 0) * (1 - eyeT i y c))
    (hwn : ∀ c : Fin 512, wn (Cert.Spec.col kt c) = (1 - eyeT i y c) - wm (Cert.Spec.col kt c)) :
    rowOf (scStep i x0 x1 l2 l3 p) y = Cert.Spec.step s wm wn kt (rowOf p y) := by
  -- the tile's scores, weights and row maximum, in the specification's words
  have h12 : ∀ c : Fin 512, k0_pay12 (F := Ideal) x0 x1 (ix2 y c) = s (Cert.Spec.col kt c) :=
    fun c => (pay12_apply x0 x1 y c).trans (hs c).symm
  have h14 : ∀ c : Fin 512, k0_pay14 (F := Ideal) i l2 l3 (ix2 y c) = wm (Cert.Spec.col kt c) :=
    fun c => (pay14_apply i l2 l3 y c).trans (hwm c).symm
  have h15 : ∀ c : Fin 512, k0_pay15 (F := Ideal) i l2 l3 (ix2 y c) = wn (Cert.Spec.col kt c) := fun c => by
    rw [pay15_apply, h14 c]; exact (hwn c).symm
  have hM : k0_pay16 (F := Ideal) x0 x1 (ix2 y (0 : Fin 1)) = ⨆ c : Fin 512, s (Cert.Spec.col kt c) :=
    (pay16_apply x0 x1 y).trans (iSup_congr h12)
  refine st_congr ?_ ?_ ?_ ?_ ?_ ?_
  · refine (pay24_row _ _ y).trans ?_
    rw [hM]
    rfl
  · refine (pay25_row _ _ _ _ _ y).trans ?_
    rw [hM]
    exact congrArg₂ (· + ·) rfl (Finset.sum_congr rfl fun c _ => by rw [h12 c, h14 c]; rfl)
  · refine (pay20_row _ _ _ _ _ y).trans ?_
    rw [hM]
    exact congrArg₂ (· + ·) rfl (Finset.sum_congr rfl fun c _ => by rw [h12 c, h15 c]; rfl)
  · refine (pay21_row _ _ y).trans ?_
    exact congrArg₂ (· + ·) rfl (Finset.sum_congr rfl fun c _ => h15 c)
  · refine (pay22_row _ _ y).trans ?_
    exact congrArg₂ (· + ·) rfl (Finset.sum_congr rfl fun c _ => h14 c)
  · refine (pay23_row _ _ _ y).trans ?_
    exact congrArg₂ (· + ·) rfl (Finset.sum_congr rfl fun c _ => by rw [h12 c, h14 c])

/-- The last point's output, row by row, is the specification's row loss of the state. -/
theorem outOf_row (p : Sc Ideal) (y : Fin 512) : outOf p (ix2 y (0 : Fin 1)) = Cert.Spec.outF (rowOf p y) := by
  unfold outOf k0_pay5 Cert.Spec.outF Cert.Spec.e8 Cert.Spec.e6
  show Ideal.div ((p.s5 _ - p.s4 _ * p.s0 _) - p.s4 _ * Ideal.log (p.s1 _ + Ideal.div (p.s2 _) (p.s3 _ + Ideal.ofBits .f32 0x322BCC77#32)))
      (if Ideal.cmp .olt (p.s4 _) (Ideal.ofBits .f32 0x358637BD#32) = 1 then Ideal.ofBits .f32 0x3F800000#32 else p.s4 _)
      * Ideal.ofBits .f32 0x3F800000#32 = _
  rw [Ideal.ofBits_one_f32]
  rfl

end Cert.KernelIdeal.Hand

end
-- ==== Proof.Args.lean ====
/-
  The argument arrays as plain functions of plain indices: entry `(r, k)` of the feature matrix and entry `r` of the
  label vector.
-/
import proofs.«167592_j69320772158191_1_alg».proof.Proof.Spec
import Idealize.ShloMosaic.Lib.ValueIdx

noncomputable section

namespace Cert.Spec

open Idealize.ShloMosaic

/-- The feature array read at `(r, k)`. -/
def featOf (x : (⟨2, ![8192, 256]⟩ : Shape).Idx → EReal) : Feat := fun r k => x (ValueIdx.ix2 r k)
/-- The label array read at `r`. -/
def labOf (l : (⟨1, ![8192]⟩ : Shape).Idx → BitVec 32) : Lab := fun r => l (ValueIdx.ix1 r)

end Cert.Spec

end
-- ==== Proof.KI.RowValue.lean ====
/-
  After each grid point, row by row, the kept columns are the specification's state of that row after the column tiles walked so far.
-/
import proofs.«167592_j69320772158191_1_alg».proof.Proof.KI.Blocks
import proofs.«167592_j69320772158191_1_alg».proof.Proof.KI.TileValue
import proofs.«167592_j69320772158191_1_alg».proof.Proof.Args

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The feature matrix and the label vector of core `c`'s launch memory, as the specification reads them. -/
def xOf (c : Dev nD) : Cert.Spec.Feat := Cert.Spec.featOf (m ((c.tc : Thread nD τ).loc main_arg0))
def lOf (c : Dev nD) : Cert.Spec.Lab := Cert.Spec.labOf (m ((c.tc : Thread nD τ).loc main_arg1))

namespace RowValue

/-- Within a row tile the global row of a local row does not change from one point to the next. -/
theorem rowIx_pred (t : Fin cfg0.N) (y : Fin 512) (h0 : ¬t.val % 16 = 0) (h : t.val - 1 < cfg0.N) :
    rowIx ⟨t.val - 1, h⟩ y = rowIx t y := by
  apply Fin.ext
  show (t.val - 1) / 16 * 512 + y.val = t.val / 16 * 512 + y.val
  have e : (t.val - 1) / 16 = t.val / 16 := by omega
  rw [e]

/-- The specification's diagonal weight at the point's global row and column is the tile's. -/
theorem eye_eq (t : Fin cfg0.N) (y cc : Fin 512) :
    Cert.Spec.eye (rowIx t y) (colIx t cc) = eyeT (grid0.coords t) y cc := by
  unfold Cert.Spec.eye eyeT
  rw [coords0, coords1]
  by_cases h : rowIx t y = colIx t cc
  · rw [if_pos h, if_pos (show t.val / 16 * 512 + y.val = t.val % 16 * 512 + cc.val from congrArg Fin.val h)]
  · rw [if_neg h, if_neg (fun h' : t.val / 16 * 512 + y.val = t.val % 16 * 512 + cc.val => h (Fin.ext h'))]

/-- The state after one more tile, below sixteen, is one step from the state before it. -/
theorem stateAt_succ (s wm wn : Fin 8192 → EReal) (n : ℕ) (h : n < 16) :
    Cert.Spec.stateAt s wm wn (n + 1) = Cert.Spec.step s wm wn ⟨n, h⟩ (Cert.Spec.stateAt s wm wn n) := by
  rw [Cert.Spec.stateAt, dif_pos h]

/-- The update at point `t`, at row `y`, is the specification's step of the global row on column tile `t mod 16`. -/
theorem step_at (c : Dev nD) (t : Fin cfg0.N) (y : Fin 512) (p : Sc Ideal) :
    rowOf (scStep (grid0.coords t) (iblk m c 0 t) (iblk m c 1 t) (iblk m c 2 t) (iblk m c 3 t) p) y
      = Cert.Spec.step (Cert.Spec.sK (xOf m c) (rowIx t y)) (Cert.Spec.mk (lOf m c) (rowIx t y)) (Cert.Spec.ng (lOf m c) (rowIx t y))
          ⟨t.val % 16, Nat.mod_lt _ (by norm_num)⟩ (rowOf p y) := by
  refine rowOf_step _ _ _ _ _ p y _ _ _ _ (fun cc => ?_) (fun cc => ?_) (fun cc => ?_)
  · show Cert.Spec.sK (xOf m c) (rowIx t y) (colIx t cc) = _
    unfold Cert.Spec.sK Cert.Spec.dot
    refine congrArg (fun z => (0 - z) * Cert.Spec.kappa) (Finset.sum_congr rfl fun k _ => ?_)
    exact congrArg₂ (· * ·) (iblk0_apply m c t y k).symm (iblk1_apply m c t cc k).symm
  · show Cert.Spec.mk (lOf m c) (rowIx t y) (colIx t cc) = _
    unfold Cert.Spec.mk Cert.Spec.lm
    rw [eye_eq]
    refine congrArg (· * (1 - eyeT (grid0.coords t) y cc)) ?_
    unfold Cert.Spec.pos
    have e2 := iblk2_apply m c t y
    have e3 := iblk3_apply m c t cc
    by_cases h : lOf m c (rowIx t y) = lOf m c (colIx t cc)
    · rw [if_pos h, if_pos (e2.trans (h.trans e3.symm))]
    · rw [if_neg h, if_neg (fun h' => h (e2.symm.trans (h'.trans e3)))]
  · show Cert.Spec.ng (lOf m c) (rowIx t y) (colIx t cc) = _
    unfold Cert.Spec.ng Cert.Spec.lm
    rw [eye_eq]
    rfl

/-- At the first column tile of a row tile: one step from the initial state. -/
theorem row_first (c : Dev nD) (t : Fin cfg0.N) (y : Fin 512) (h0 : t.val % 16 = 0) :
    rowOf (scAt (F := Ideal) m c t.val t.isLt) y
      = Cert.Spec.stateAt (Cert.Spec.sK (xOf m c) (rowIx t y)) (Cert.Spec.mk (lOf m c) (rowIx t y)) (Cert.Spec.ng (lOf m c) (rowIx t y)) (t.val % 16 + 1) := by
  refine (congrArg (fun p => rowOf p y) (scAt_first m c t h0)).trans ((step_at m c t y _).trans ?_)
  have e : Cert.Spec.stateAt (Cert.Spec.sK (xOf m c) (rowIx t y)) (Cert.Spec.mk (lOf m c) (rowIx t y)) (Cert.Spec.ng (lOf m c) (rowIx t y)) (t.val % 16) = Cert.Spec.St.init := by
    rw [h0]; rfl
  rw [rowOf_reset, stateAt_succ _ _ _ (t.val % 16) (Nat.mod_lt _ (by norm_num)), e]

/-- At any other column tile: one step from the state the point before left, which is the same global row's. -/
theorem row_next (c : Dev nD) (t : Fin cfg0.N) (y : Fin 512) (h0 : ¬t.val % 16 = 0)
    (hlt : t.val - 1 < cfg0.N)
    (ih : rowOf (scAt (F := Ideal) m c (t.val - 1) hlt) y
      = Cert.Spec.stateAt (Cert.Spec.sK (xOf m c) (rowIx ⟨t.val - 1, hlt⟩ y)) (Cert.Spec.mk (lOf m c) (rowIx ⟨t.val - 1, hlt⟩ y))
          (Cert.Spec.ng (lOf m c) (rowIx ⟨t.val - 1, hlt⟩ y)) ((t.val - 1) % 16 + 1)) :
    rowOf (scAt (F := Ideal) m c t.val t.isLt) y
      = Cert.Spec.stateAt (Cert.Spec.sK (xOf m c) (rowIx t y)) (Cert.Spec.mk (lOf m c) (rowIx t y)) (Cert.Spec.ng (lOf m c) (rowIx t y)) (t.val % 16 + 1) := by
  have hk : (t.val - 1) % 16 + 1 = t.val % 16 := by omega
  rw [rowIx_pred t y h0 hlt, hk] at ih
  refine (congrArg (fun p => rowOf p y) (scAt_next m c t h0)).trans ((step_at m c t y _).trans ?_)
  rw [stateAt_succ _ _ _ (t.val % 16) (Nat.mod_lt _ (by norm_num))]
  exact congrArg _ ih

end RowValue

open RowValue

/-- Row `y` of the kept columns after point `t`: the specification's state of global row `rowIx t y` after the first
    `t mod 16 + 1` column tiles. -/
theorem scAt_row (c : Dev nD) (t : Fin cfg0.N) (y : Fin 512) :
    rowOf (scAt (F := Ideal) m c t.val t.isLt) y
      = Cert.Spec.stateAt (Cert.Spec.sK (xOf m c) (rowIx t y)) (Cert.Spec.mk (lOf m c) (rowIx t y)) (Cert.Spec.ng (lOf m c) (rowIx t y)) (t.val % 16 + 1) := by
  obtain ⟨n, hn⟩ := t
  induction n using Nat.strong_induction_on with
  | _ n ih =>
    by_cases h0 : n % 16 = 0
    · exact row_first m c ⟨n, hn⟩ y h0
    · have hlt : n - 1 < cfg0.N := Nat.lt_of_le_of_lt (Nat.sub_le _ _) hn
      exact row_next m c ⟨n, hn⟩ y h0 hlt (ih (n - 1) (by omega) hlt)

end Cert.KernelIdeal.Hand

end
-- ==== Proof.KI.ArrayValue.lean ====
/-
  The region's output array after the run, row by row, is the specification's kernel loss of the row; its mean is the specification's total.
-/
import proofs.«167592_j69320772158191_1_alg».proof.Proof.KI.RowValue
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The output window's block index at a point: the row tile on the first axis, zero on the second. -/
theorem idx_out : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- The whole output array as one function of the arguments: row by row the specification's kernel loss. -/
abbrev Gout (c : Dev nD) : Vec Ideal S8192x1 .f32 := fun j => Cert.Spec.kerRow (xOf m c) (lOf m c) (j 0)

/-- What a writing point writes back is its block of that function. -/
theorem flushed_eq (c : Dev nD) (t : Fin cfg0.N) (hf : (cfg0.win 4).flush t = true) :
    (dats (F := Ideal) m 0 c).flushed 4 t = ((cfg0.win 4).blk t).view.read (Elt Ideal) (Gout m c) := by
  have h15 : t.val % 16 = 15 := (flush0_4 t).mp hf
  obtain ⟨e0, e1⟩ := idx_out t
  show (cfg0.win 4).cut (grid0.coords t) ((dats (F := Ideal) m 0 c).after 4 t) = _
  rw [after0_4]
  funext j
  have hj0 : (j 0).val < 512 := (j 0).isLt
  have hj1 : (j 1).val < 1 := (j 1).isLt
  have hx : (cfg0.win 4).xinj (grid0.coords t) j = ix2 (⟨(j 0).val, hj0⟩ : Fin 512) (0 : Fin 1) := by
    funext a; apply Fin.ext
    match a with
    | ⟨0, _⟩ => rfl
    | ⟨1, _⟩ => show (j 1).val = 0; omega
  show outOf (scAt (F := Ideal) m c t.val t.isLt) ((cfg0.win 4).xinj (grid0.coords t) j)
    = Cert.Spec.kerRow (xOf m c) (lOf m c) ((((cfg0.win 4).blk t).view.emb j) 0)
  rw [hx, outOf_row, scAt_row]
  have hr : ((((cfg0.win 4).blk t).view.emb j) 0 : Fin 8192) = rowIx t (⟨(j 0).val, hj0⟩ : Fin 512) := by
    apply Fin.ext
    show win0_4.index t (0 : Fin 2) * 512 + 1 * (j 0).val = t.val / 16 * 512 + (j 0).val
    rw [e0]; omega
  rw [hr, h15]
  rfl

/-- Every row of the output array holds that row's loss as the kernel computes it. -/
theorem out_final (c : Dev nD) :
    ((dats (F := Ideal) m 0 c).arrAt 4 cfg0.N : Vec Ideal S8192x1 .f32)
      = fun j => Cert.Spec.kerRow (xOf m c) (lOf m c) (j 0) := by
  refine (dats (F := Ideal) m 0 c).arrAt_eq_of_cover 4 (Gout m c) (flushed_eq m c) fun i => ?_
  have hN : cfg0.N = 256 := N_0
  have hi0 : (i 0).val < 8192 := (i 0).isLt
  have hi1 : (i 1).val < 1 := (i 1).isLt
  let t : Fin cfg0.N := ⟨(i 0).val / 512 * 16 + 15, by omega⟩
  have ht : t.val = (i 0).val / 512 * 16 + 15 := rfl
  obtain ⟨e0, e1⟩ := idx_out t
  refine ⟨t, (flush0_4 t).mpr (by omega), ?_⟩
  show i ∈ ((View.whole main_v2).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1 ≤ (i 1).val ∧ (i 1).val < win0_4.index t (1 : Fin 2) * 1 + 1
    rw [e1]; omega

/-- The rows of the one-column array are Fin 8192. -/
theorem sum_col (f : S8192x1.Idx → EReal) : ∑ i, f i = ∑ r : Fin 8192, f (ix2 r (0 : Fin 1)) := by
  rw [sum_idx2]
  refine Finset.sum_congr rfl fun r _ => ?_
  rw [Fin.sum_univ_one]

/-- The sum of the output array divided by 8192 is the mean of the rows' losses. -/
theorem kernel_total (c : Dev nD) :
    (Host.divf (Host.reduceAdd ((dats (F := Ideal) m 0 c).arrAt 4 cfg0.N) (constant (F := Ideal) S_ .f32 0x00000000#32) reducesTo_S8192x1_S_d0_1 h_S_) (constant (F := Ideal) S_ .f32 0x46000000#32) : FVec Ideal S_ .f32)
      = fun _ => Cert.Spec.total (Cert.Spec.kerRow (xOf m c) (lOf m c)) := by
  have e := out_final m c
  generalize ((dats (F := Ideal) m 0 c).arrAt 4 cfg0.N : Vec Ideal S8192x1 .f32) = y at e ⊢
  subst e
  funext i
  show Ideal.div (Host.reduceAdd (F := Ideal) (fun j : S8192x1.Idx => Cert.Spec.kerRow (xOf m c) (lOf m c) (j 0))
      (constant (F := Ideal) S_ .f32 0x00000000#32) reducesTo_S8192x1_S_d0_1 h_S_ i) (Ideal.ofBits .f32 0x46000000#32) = _
  simp only [Host.reduceAdd, Ideal.hostReduceAdd_def]
  rw [Ideal.hostReduceAdd_total reducesTo_S8192x1_S_d0_1 (fun b => b.elim0)]
  show Ideal.div (Ideal.ofBits .f32 0x00000000#32 + _) _ = _
  rw [Ideal.ofBits_zero_f32, zero_add, sum_col]
  rfl

end Cert.KernelIdeal.Hand

end
-- ==== Proof.RefValue.lean ====
/-
  The reference program's result, at the extended reals, is the mean over the rows of the specification's per-row
  reference loss.  Each stage of the program is read at an index (r, j) (or r) and identified with the quantity the
  specification names: the label-equality weight, the inner product, the scaled score, the row maximum, the shifted
  score, the diagonal and its complement, the positive and negative weights, the exponentials, the row sums, the
  logarithm, the guarded count of positives, the row's loss, and at last the mean.
-/
import proofs.«167592_j69320772158191_1_alg».proof.Proof.Spec
import proofs.«167592_j69320772158191_1_alg».proof.Proof.RefRead
import proofs.«167592_j69320772158191_1_alg».proof.Proof.Args
import Idealize.ShloMosaic.Lib.ValueIdx
import Idealize.ShloMosaic.PureOps.Ideal.Laws
import Idealize.ShloMosaic.PureOps.Reduce
import Mathlib.Order.CompleteLattice.Finset
import Mathlib.Data.Fintype.BigOperators

noncomputable section

namespace Cert.RefValue

open Cert.ReferenceIdeal Cert.ReferenceIdeal.Gen Cert.ReferenceIdeal.ReadP Idealize.ShloMosaic
  Idealize.ShloMosaic.StableHlo Idealize.ShloMosaic.ValueIdx Cert.Spec

/-! ## General facts -/

/-- A fold of max from the bottom element over a whole finite index type is the supremum of the family. -/
theorem fold_max_bot_eq_iSup {ι : Type} [Fintype ι] (f : ι → EReal) :
    (Finset.univ : Finset ι).fold max ⊥ f = ⨆ k, f k := by
  rw [← Finset.sup_univ_eq_iSup]; rfl

/-- The rank-1 index set of extent n is Fin n. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-- The zero-extended equality bit of two words, as an extended real, is the 0/1 indicator of their equality. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  unfold IntOp.cmpi
  by_cases h : a = b
  · simp [h]
  · simp [h]

/-- Row numbers below 8192 are told apart by their 32-bit words. -/
theorem ofNat_inj (r j : Fin 8192) : BitVec.ofNat 32 r.val = BitVec.ofNat 32 j.val ↔ r = j := by
  constructor
  · intro h
    have h2 := congrArg BitVec.toNat h
    simp only [BitVec.toNat_ofNat] at h2
    have hr := r.isLt
    have hj := j.isLt
    apply Fin.ext
    omega
  · rintro rfl; rfl

/-! ## The printed constants -/

theorem temp_bits : Ideal.ofBits .f32 0x3D8F5C29#32 = temp := by
  simp [Ideal.ofBits, Ideal.ieee, temp, -EReal.coe_mul]; norm_num
theorem one_bits : Ideal.ofBits .f32 0x3F800000#32 = 1 := by
  simp [Ideal.ofBits, Ideal.ieee, -EReal.coe_mul]; norm_num
theorem neginf_bits : Ideal.ofBits .f32 0xFF800000#32 = ⊥ := by
  simp [Ideal.ofBits, Ideal.ieee]

/-! ## The stages at an index -/

/-- Stage 5: the label-equality weight. -/
theorem v5_at (x1 : (⟨S8192, .i32⟩ : BufTy).Contents (Elt Ideal)) (r j : Fin 8192) :
    val_main_v5 (F := Ideal) x1 (ix2 r j) = pos (labOf x1) r j := by
  rw [val_main_v5_apply, val_main_v4_apply, val_main_v2_apply, val_main_v3_apply, val_main_v0_apply,
    val_main_v1_apply, val_main_v0_apply]
  have e1 : idx_main_v0 (idx_main_v2 (ix2 r j)) = ix1 r := by
    funext a; apply Fin.ext
    match a with
    | ⟨0, _⟩ => show r.val * 1 + 0 = r.val; omega
  have e2 : idx_main_v0 (idx_main_v1 (idx_main_v3 (ix2 r j))) = ix1 j := by
    funext a; apply Fin.ext
    match a with
    | ⟨0, _⟩ => show j.val * 1 + 0 = j.val; omega
  rw [e1, e2, uitofp_cmpi_eq]
  rfl

/-- Stage 7: the inner product of rows r and j. -/
theorem v7_at (x0 : (⟨S8192x256, .f32⟩ : BufTy).Contents (Elt Ideal)) (r j : Fin 8192) :
    val_main_v7 (F := Ideal) x0 (ix2 r j) = dot (featOf x0) r j := by
  rw [val_main_v7_apply]
  unfold dot
  refine Finset.sum_congr rfl fun k _ => ?_
  rw [val_main_v6_apply]
  have e1 : lidx_main_v7 (ix2 r j) k = ix2 r k := by
    funext a; apply Fin.ext
    match a with
    | ⟨0, _⟩ => rfl
    | ⟨1, _⟩ => rfl
  have e2 : idx_main_v6 (ridx_main_v7 (ix2 r j) k) = ix2 j k := by
    funext a; apply Fin.ext
    match a with
    | ⟨0, _⟩ => rfl
    | ⟨1, _⟩ => rfl
  rw [e1, e2]
  rfl

/-- Stage 10: the reference's score. -/
theorem v10_at (x0 : (⟨S8192x256, .f32⟩ : BufTy).Contents (Elt Ideal)) (r j : Fin 8192) :
    val_main_v10 (F := Ideal) x0 (ix2 r j) = sR (featOf x0) r j := by
  rw [val_main_v10_apply, val_main_v8_apply, val_main_v9_apply, val_main_cst_apply, v7_at]
  simp only [Ideal.hostDivf_def, Ideal.hostNegf_def, Ideal.negf_def, Ideal.ofBits_def, temp_bits]
  rfl

/-- The reduced index r with column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- From the bottom element, a reduction by maximum along the columns is, at row r, the supremum of the row. -/
theorem rowmax_at (y : S8192x8192.Idx → EReal) (r : Fin 8192) :
    Host.reduce (FloatOps.maximumf (F := Ideal) (φ := .f32)) y (val_main_cst_0 (F := Ideal) : S_.Idx → EReal)
        reducesTo_S8192x8192_S8192_d1 h_S_ (ix1 r)
      = ⨆ j : Fin 8192, y (ix2 r j) := by
  have h : S8192x8192.Reduces [1] S8192 := by decide
  refine (Host.reduce_eq_fold_single (FloatOps.maximumf (F := Ideal) (φ := .f32)) y _
    reducesTo_S8192x8192_S8192_d1 h h_S_ (ix1 r)).trans ?_
  have hf : (y ∘ h.lift (ix1 r)) = fun k : Fin 8192 => y (ix2 r k) := funext fun k => congrArg y (lift_row h r k)
  rw [val_main_cst_0_apply, Ideal.ofBits_def, neginf_bits]
  exact (congrArg (fun f => Finset.fold max (⊥ : EReal) f (Finset.univ : Finset (Fin 8192))) hf).trans
    (fold_max_bot_eq_iSup _)

/-- Stage 11: the row maximum of the scores. -/
theorem v11_at (x0 : (⟨S8192x256, .f32⟩ : BufTy).Contents (Elt Ideal)) (r : Fin 8192) :
    val_main_v11 (F := Ideal) x0 (ix1 r) = ⨆ j : Fin 8192, sR (featOf x0) r j := by
  unfold val_main_v11
  have hy : ∀ j : Fin 8192, val_main_v10 (F := Ideal) x0 (ix2 r j) = sR (featOf x0) r j := fun j => v10_at x0 r j
  generalize val_main_v10 (F := Ideal) x0 = y at hy ⊢
  exact (rowmax_at y r).trans (iSup_congr hy)

/-- Stage 14: the score shifted by the row maximum. -/
theorem v14_at (x0 : (⟨S8192x256, .f32⟩ : BufTy).Contents (Elt Ideal)) (r j : Fin 8192) :
    val_main_v14 (F := Ideal) x0 (ix2 r j) = sR (featOf x0) r j - ⨆ j : Fin 8192, sR (featOf x0) r j := by
  rw [val_main_v14_apply, val_main_v13_apply, val_main_v12_apply, v10_at]
  have e1 : idx_main_v12 (idx_main_v13 (ix2 r j)) = ix1 r := by
    funext a; apply Fin.ext
    match a with
    | ⟨0, _⟩ => rfl
  rw [e1, v11_at]
  rfl

/-- Stage 20: the diagonal. -/
theorem v20_at (r j : Fin 8192) : val_main_v20 (F := Ideal) (ix2 r j) = eye r j := by
  rw [val_main_v20_apply, val_main_v19_apply, val_main_v18_apply, val_main_v15_apply, val_main_v16_apply,
    val_main_v17_apply, val_main_c_apply, uitofp_cmpi_eq]
  show (if IntOp.addi (BitVec.ofNat 32 r.val) 0#32 = BitVec.ofNat 32 j.val then (1 : EReal) else 0) = _
  have e : IntOp.addi (BitVec.ofNat 32 r.val) 0#32 = BitVec.ofNat 32 r.val := by
    unfold IntOp.addi; simp
  rw [e]
  unfold eye
  by_cases h : r = j
  · rw [if_pos ((ofNat_inj r j).2 h), if_pos h]
  · rw [if_neg (fun h' => h ((ofNat_inj r j).1 h')), if_neg h]

/-- Stage 22: the complement of the diagonal. -/
theorem v22_at (r j : Fin 8192) : val_main_v22 (F := Ideal) (ix2 r j) = lm r j := by
  rw [val_main_v22_apply, val_main_v21_apply, val_main_cst_1_apply, v20_at]
  simp only [Ideal.subf_def, Ideal.ofBits_def, one_bits]
  rfl

/-- Stage 23: the positives. -/
theorem v23_at (x1 : (⟨S8192, .i32⟩ : BufTy).Contents (Elt Ideal)) (r j : Fin 8192) :
    val_main_v23 (F := Ideal) x1 (ix2 r j) = mk (labOf x1) r j := by
  rw [val_main_v23_apply, v5_at, v22_at]
  rfl

/-- Stage 25: the negatives. -/
theorem v25_at (x1 : (⟨S8192, .i32⟩ : BufTy).Contents (Elt Ideal)) (r j : Fin 8192) :
    val_main_v25 (F := Ideal) x1 (ix2 r j) = ng (labOf x1) r j := by
  rw [val_main_v25_apply, v23_at, v22_at]
  rfl

/-- Stage 24: the exponential of the shifted score. -/
theorem v24_at (x0 : (⟨S8192x256, .f32⟩ : BufTy).Contents (Elt Ideal)) (r j : Fin 8192) :
    val_main_v24 (F := Ideal) x0 (ix2 r j)
      = Ideal.exp (sR (featOf x0) r j - ⨆ j : Fin 8192, sR (featOf x0) r j) := by
  rw [val_main_v24_apply, v14_at]
  rfl

/-! ## The row quantities of the specification, named -/

/-- The score shifted by its row's supremum. -/
def lgR (x : Feat) (r j : Fin 8192) : EReal := sR x r j - ⨆ j : Fin 8192, sR x r j
/-- Its exponential. -/
def ER (x : Feat) (r j : Fin 8192) : EReal := Ideal.exp (lgR x r j)
/-- The count of negatives of row r. -/
def cnR (l : Lab) (r : Fin 8192) : EReal := ∑ j : Fin 8192, ng l r j
/-- The exponential sum over the negatives. -/
def snR (x : Feat) (l : Lab) (r : Fin 8192) : EReal := ∑ j : Fin 8192, ER x r j * ng l r j
/-- The exponential sum over the positives. -/
def spR (x : Feat) (l : Lab) (r : Fin 8192) : EReal := ∑ j : Fin 8192, ER x r j * mk l r j
/-- The logarithm of the denominator. -/
def LR (x : Feat) (l : Lab) (r : Fin 8192) : EReal :=
  Ideal.log (spR x l r + Ideal.div (snR x l r) (cnR l r + e8))
/-- The count of positives. -/
def mppR (l : Lab) (r : Fin 8192) : EReal := ∑ j : Fin 8192, mk l r j

/-- The specification's reference row in these names. -/
theorem refRow_eq (x : Feat) (l : Lab) (r : Fin 8192) :
    refRow x l r = 1 * Ideal.div (∑ j : Fin 8192, mk l r j * (lgR x r j - LR x l r))
      (if Ideal.cmp .olt (mppR l r) e6 = 1#1 then 1 else mppR l r) := rfl

theorem v14_at' (x0 : (⟨S8192x256, .f32⟩ : BufTy).Contents (Elt Ideal)) (r j : Fin 8192) :
    val_main_v14 (F := Ideal) x0 (ix2 r j) = lgR (featOf x0) r j := v14_at x0 r j

theorem v24_at' (x0 : (⟨S8192x256, .f32⟩ : BufTy).Contents (Elt Ideal)) (r j : Fin 8192) :
    val_main_v24 (F := Ideal) x0 (ix2 r j) = ER (featOf x0) r j := v24_at x0 r j

/-- Stage 26: the count of negatives. -/
theorem v26_at (x1 : (⟨S8192, .i32⟩ : BufTy).Contents (Elt Ideal)) (r : Fin 8192) :
    val_main_v26 (F := Ideal) x1 (ix1 r) = cnR (labOf x1) r := by
  rw [val_main_v26_apply, val_main_cst_2_apply, Ideal.ofBits_def, Ideal.ofBits_zero_f32, zero_add]
  unfold cnR
  refine Finset.sum_congr rfl fun k _ => ?_
  have e : idx_main_v26 (ix1 r) k = ix2 r k := by
    funext a; apply Fin.ext
    match a with
    | ⟨0, _⟩ => rfl
    | ⟨1, _⟩ => rfl
  rw [e, v25_at]

/-- Stage 29: the exponential sum over the negatives. -/
theorem v29_at (x0 : (⟨S8192x256, .f32⟩ : BufTy).Contents (Elt Ideal)) (x1 : (⟨S8192, .i32⟩ : BufTy).Contents (Elt Ideal)) (r : Fin 8192) :
    val_main_v29 (F := Ideal) x0 x1 (ix1 r) = snR (featOf x0) (labOf x1) r := by
  rw [val_main_v29_apply, val_main_cst_3_apply, Ideal.ofBits_def, Ideal.ofBits_zero_f32, zero_add]
  unfold snR
  refine Finset.sum_congr rfl fun k _ => ?_
  have e : idx_main_v29 (ix1 r) k = ix2 r k := by
    funext a; apply Fin.ext
    match a with
    | ⟨0, _⟩ => rfl
    | ⟨1, _⟩ => rfl
  rw [e, val_main_v28_apply, v24_at', v25_at]
  rfl

/-- Stage 35: the exponential sum over the positives. -/
theorem v35_at (x0 : (⟨S8192x256, .f32⟩ : BufTy).Contents (Elt Ideal)) (x1 : (⟨S8192, .i32⟩ : BufTy).Contents (Elt Ideal)) (r : Fin 8192) :
    val_main_v35 (F := Ideal) x0 x1 (ix1 r) = spR (featOf x0) (labOf x1) r := by
  rw [val_main_v35_apply, val_main_cst_5_apply, Ideal.ofBits_def, Ideal.ofBits_zero_f32, zero_add]
  unfold spR
  refine Finset.sum_congr rfl fun k _ => ?_
  have e : idx_main_v35 (ix1 r) k = ix2 r k := by
    funext a; apply Fin.ext
    match a with
    | ⟨0, _⟩ => rfl
    | ⟨1, _⟩ => rfl
  rw [e, val_main_v34_apply, v24_at', v23_at]
  rfl

/-- Stage 41: the count of positives. -/
theorem v41_at (x1 : (⟨S8192, .i32⟩ : BufTy).Contents (Elt Ideal)) (r : Fin 8192) :
    val_main_v41 (F := Ideal) x1 (ix1 r) = mppR (labOf x1) r := by
  rw [val_main_v41_apply, val_main_cst_6_apply, Ideal.ofBits_def, Ideal.ofBits_zero_f32, zero_add]
  unfold mppR
  refine Finset.sum_congr rfl fun k _ => ?_
  have e : idx_main_v41 (ix1 r) k = ix2 r k := by
    funext a; apply Fin.ext
    match a with
    | ⟨0, _⟩ => rfl
    | ⟨1, _⟩ => rfl
  rw [e, v23_at]

/-- Stage 33: the negatives' exponential sum over their guarded count. -/
theorem v33_at (x0 : (⟨S8192x256, .f32⟩ : BufTy).Contents (Elt Ideal)) (x1 : (⟨S8192, .i32⟩ : BufTy).Contents (Elt Ideal)) (r : Fin 8192) :
    val_main_v33 (F := Ideal) x0 x1 (ix2 r (0 : Fin 1))
      = Ideal.div (snR (featOf x0) (labOf x1) r) (cnR (labOf x1) r + e8) := by
  rw [val_main_v33_apply, val_main_v30_apply, val_main_v32_apply, val_main_v27_apply, val_main_v31_apply,
    val_main_cst_4_apply]
  have e1 : idx_main_v30 (ix2 r (0 : Fin 1)) = ix1 r := by
    funext a; apply Fin.ext
    match a with
    | ⟨0, _⟩ => rfl
  have e2 : idx_main_v27 (ix2 r (0 : Fin 1)) = ix1 r := by
    funext a; apply Fin.ext
    match a with
    | ⟨0, _⟩ => rfl
  rw [e1, e2, v29_at, v26_at]
  rfl

/-- Stage 38: the logarithm of the denominator. -/
theorem v38_at (x0 : (⟨S8192x256, .f32⟩ : BufTy).Contents (Elt Ideal)) (x1 : (⟨S8192, .i32⟩ : BufTy).Contents (Elt Ideal)) (r : Fin 8192) :
    val_main_v38 (F := Ideal) x0 x1 (ix2 r (0 : Fin 1)) = LR (featOf x0) (labOf x1) r := by
  rw [val_main_v38_apply, val_main_v37_apply, val_main_v36_apply, v33_at]
  have e1 : idx_main_v36 (ix2 r (0 : Fin 1)) = ix1 r := by
    funext a; apply Fin.ext
    match a with
    | ⟨0, _⟩ => rfl
  rw [e1, v35_at]
  rfl

/-- Stage 40: the shifted score less the logarithm. -/
theorem v40_at (x0 : (⟨S8192x256, .f32⟩ : BufTy).Contents (Elt Ideal)) (x1 : (⟨S8192, .i32⟩ : BufTy).Contents (Elt Ideal)) (r j : Fin 8192) :
    val_main_v40 (F := Ideal) x0 x1 (ix2 r j) = lgR (featOf x0) r j - LR (featOf x0) (labOf x1) r := by
  rw [val_main_v40_apply, val_main_v39_apply, v14_at']
  have e1 : idx_main_v39 (ix2 r j) = ix2 r (0 : Fin 1) := by
    funext a; apply Fin.ext
    match a with
    | ⟨0, _⟩ => rfl
    | ⟨1, _⟩ => rfl
  rw [e1, v38_at]
  rfl

/-- Stage 44: the guarded count of positives. -/
theorem v44_at (x1 : (⟨S8192, .i32⟩ : BufTy).Contents (Elt Ideal)) (r : Fin 8192) :
    val_main_v44 (F := Ideal) x1 (ix1 r)
      = if Ideal.cmp .olt (mppR (labOf x1) r) e6 = 1#1 then 1 else mppR (labOf x1) r := by
  rw [val_main_v44_apply, val_main_v43_apply, val_main_v42_apply, val_main_cst_7_apply, val_main_call0_v1_apply,
    val_main_call0_v0_apply, val_main_cst_8_apply, v41_at, Ideal.ofBits_def, Ideal.ofBits_def, one_bits]
  rfl

/-- Stage 46: the numerator of the row's loss. -/
theorem v46_at (x0 : (⟨S8192x256, .f32⟩ : BufTy).Contents (Elt Ideal)) (x1 : (⟨S8192, .i32⟩ : BufTy).Contents (Elt Ideal)) (r : Fin 8192) :
    val_main_v46 (F := Ideal) x0 x1 (ix1 r)
      = ∑ j : Fin 8192, mk (labOf x1) r j * (lgR (featOf x0) r j - LR (featOf x0) (labOf x1) r) := by
  rw [val_main_v46_apply, val_main_cst_9_apply, Ideal.ofBits_def, Ideal.ofBits_zero_f32, zero_add]
  refine Finset.sum_congr rfl fun k _ => ?_
  have e : idx_main_v46 (ix1 r) k = ix2 r k := by
    funext a; apply Fin.ext
    match a with
    | ⟨0, _⟩ => rfl
    | ⟨1, _⟩ => rfl
  rw [e, val_main_v45_apply, v23_at, v40_at]
  rfl

/-- Stage 49: the row's loss. -/
theorem v49_at (x0 : (⟨S8192x256, .f32⟩ : BufTy).Contents (Elt Ideal)) (x1 : (⟨S8192, .i32⟩ : BufTy).Contents (Elt Ideal)) (r : Fin 8192) :
    val_main_v49 (F := Ideal) x0 x1 (ix1 r) = refRow (featOf x0) (labOf x1) r := by
  rw [val_main_v49_apply, val_main_v48_apply, val_main_cst_10_apply, val_main_v47_apply, v46_at, v44_at,
    Ideal.ofBits_def, one_bits, refRow_eq]
  rfl

/-- The reference program's result is the mean over the rows of the specification's reference row. -/
theorem ref_total (x0 : (⟨S8192x256, .f32⟩ : BufTy).Contents (Elt Ideal)) (x1 : (⟨S8192, .i32⟩ : BufTy).Contents (Elt Ideal)) :
    Cert.ReferenceIdeal.ReadP.val_main_v51 (F := Ideal) x0 x1
      = fun _ => Cert.Spec.total (Cert.Spec.refRow (Cert.Spec.featOf x0) (Cert.Spec.labOf x1)) := by
  funext i
  rw [val_main_v51_apply, val_main_v50_apply, val_main_cst_11_apply, val_main_cst_12_apply, Ideal.ofBits_def,
    Ideal.ofBits_def, Ideal.ofBits_zero_f32, zero_add, sum_idx1]
  unfold total
  rw [Finset.sum_congr rfl fun a _ => v49_at x0 x1 a]
  rfl

end Cert.RefValue

end
-- ==== Proof.Finite.lean ====
/-
  The precondition, read: when the printed predicate is all ones on the argument arrays, every entry of the feature
  matrix is a real number.
-/
import proofs.«167592_j69320772158191_1_alg».proof.Pre_finite_inputs
import proofs.«167592_j69320772158191_1_alg».proof.Proof.Gen.Pre_finite_inputs
import proofs.«167592_j69320772158191_1_alg».proof.Proof.Args
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

variable [Cert.Pre_finite_inputs.Facts]

/-- The scalar shape has one index. -/
instance subsingleton_scalar_idx : Subsingleton Cert.Pre_finite_inputs.S_.Idx := ⟨fun a b => funext fun d => d.elim0⟩

/-- The word of the positive infinity is the top of the extended reals. -/
theorem ofBits_pos_inf : Ideal.ofBits .f32 0x7F800000#32 = (⊤ : EReal) := by simp [Ideal.ofBits, Ideal.ieee]

/-- An extended real whose absolute value compares below the positive infinity is a real number. -/
theorem real_of_abs_lt_inf (x : EReal)
    (h : Ideal.cmp .olt (max x (-x)) (Ideal.ofBits .f32 0x7F800000#32) = 1#1) : ∃ v : ℝ, x = (v : EReal) := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- If the precondition's predicate evaluates to one on `(x, l, σ)`, every entry of `x` is a real number. -/
theorem finite_of_pre (x : FVec Ideal Cert.Pre_finite_inputs.S8192x256 .f32) (l : IVec Cert.Pre_finite_inputs.S8192 32) (σ : FVec Ideal Cert.Pre_finite_inputs.S1 .f32)
    (h : Cert.Pre_finite_inputs.fn (F := Ideal) x l σ = (fun _ => 1#1)) :
    Cert.Spec.Finite (Cert.Spec.featOf x) := by
  have h0 := congrFun h ValueIdx.ix0
  dsimp only [Cert.Pre_finite_inputs.fn] at h0
  obtain ⟨h3, _⟩ := IntOp.andi_eq_one.1 h0
  intro r k
  have he := Host.reduce_andi_all _ _ _ _ _ h3 (ix2 r k)
  exact real_of_abs_lt_inf _ he

end Cert.Finite

end
-- ==== Proof.Online.lean ====
/-
  The online-softmax invariant.

  The kernel walks the 8192 columns in sixteen tiles of 512.  After the first `n` tiles its state is the
  "partial" state of the first `n·512` columns: the running maximum is the supremum of the scores over those
  columns (`⊥` when there are none), the two exponential sums are `Σ exp(s_j − m_n)·w_j` over those columns,
  and the three linear sums are plain partial sums.  One tile's update carries the partial state of a set `A`
  of columns to that of `A ∪ tile`, because `exp(m_A − m')·exp(s_j − m_A) = exp(s_j − m')` whenever the
  scores are real numbers (for `A = ∅` both sides of the rescaled sum are zero).  After sixteen tiles the set
  of columns is everything, which is the statement.
-/
import proofs.«167592_j69320772158191_1_alg».proof.Proof.Spec
import Mathlib.Data.EReal.Operations
import Mathlib.Data.Finset.Lattice.Fold
import Mathlib.Data.Finset.Lattice.Lemmas
import Mathlib.Data.Fintype.Lattice
import Mathlib.Algebra.BigOperators.Group.Finset.Basic
import Mathlib.Algebra.BigOperators.Ring.Finset
import Mathlib.Analysis.Complex.Exponential

noncomputable section

namespace Cert.Spec

open Idealize.ShloMosaic

namespace Online

/-! ### Real numbers inside the extended reals -/

/-- The coercion of a finite sum of reals is the sum of the coercions. -/
theorem coe_sum {ι : Type*} (A : Finset ι) (f : ι → ℝ) :
    ((∑ j ∈ A, f j : ℝ) : EReal) = ∑ j ∈ A, (f j : EReal) := by
  classical
  refine Finset.induction_on A ?_ ?_
  · simp
  · intro a B ha ih
    rw [Finset.sum_insert ha, Finset.sum_insert ha, EReal.coe_add, ih]

/-- The exponential of a difference of two reals is the real exponential. -/
theorem exp_coe_sub (x y : ℝ) :
    Ideal.exp ((x : EReal) - (y : EReal)) = ((Real.exp (x - y) : ℝ) : EReal) := by
  rw [← EReal.coe_sub]
  rfl

/-- Rescaling: `exp(a − b) · Σ exp(s_j − a)·w_j = Σ exp(s_j − b)·w_j` for real data. -/
theorem rescale {ι : Type*} (A : Finset ι) (sv wv : ι → ℝ) (a b : ℝ) :
    Ideal.exp ((a : EReal) - (b : EReal)) * ∑ j ∈ A, Ideal.exp ((sv j : EReal) - (a : EReal)) * (wv j : EReal)
      = ∑ j ∈ A, Ideal.exp ((sv j : EReal) - (b : EReal)) * (wv j : EReal) := by
  have e : ∀ c : ℝ, ∑ j ∈ A, Ideal.exp ((sv j : EReal) - (c : EReal)) * (wv j : EReal)
      = ((∑ j ∈ A, Real.exp (sv j - c) * wv j : ℝ) : EReal) := by
    intro c
    rw [coe_sum]
    refine Finset.sum_congr rfl (fun j _ => ?_)
    rw [exp_coe_sub, EReal.coe_mul]
  rw [e a, e b, exp_coe_sub, ← EReal.coe_mul, Finset.mul_sum]
  congr 1
  refine Finset.sum_congr rfl (fun j _ => ?_)
  have h : a - b + (sv j - a) = sv j - b := by ring
  rw [← mul_assoc, ← Real.exp_add, h]

/-- The supremum of finitely many (at least one) reals is a real. -/
theorem sup_coe_real {ι : Type*} (A : Finset ι) (hA : A.Nonempty) (sv : ι → ℝ) :
    ∃ a : ℝ, A.sup (fun j => (sv j : EReal)) = (a : EReal) := by
  obtain ⟨i, _, hi⟩ := Finset.exists_mem_eq_sup A hA (fun j => (sv j : EReal))
  exact ⟨sv i, hi⟩

/-- Rescaling from the supremum of `A` itself: for `A = ∅` both sides are zero. -/
theorem rescale_sup {ι : Type*} (s w : ι → EReal) (sv wv : ι → ℝ)
    (hs : ∀ j, s j = (sv j : EReal)) (hw : ∀ j, w j = (wv j : EReal)) (A : Finset ι) (b : ℝ) :
    Ideal.exp (A.sup s - (b : EReal)) * ∑ j ∈ A, Ideal.exp (s j - A.sup s) * w j
      = ∑ j ∈ A, Ideal.exp (s j - (b : EReal)) * w j := by
  rcases A.eq_empty_or_nonempty with rfl | hA
  · simp
  · have hs' : s = fun j => (sv j : EReal) := funext hs
    have hw' : w = fun j => (wv j : EReal) := funext hw
    subst hs' hw'
    obtain ⟨a, ha⟩ := sup_coe_real A hA sv
    rw [ha]
    exact rescale A sv wv a b

/-! ### Tiles of columns -/

/-- The columns of tile `kt`. -/
def tile (kt : Fin 16) : Finset (Fin 8192) := Finset.univ.image (col kt)

/-- The first `n·512` columns. -/
def pre (n : Nat) : Finset (Fin 8192) := Finset.univ.filter (fun j => j.val < n * 512)

theorem col_injective (kt : Fin 16) : Function.Injective (col kt) := by
  intro c c' h
  have h' : kt.val * 512 + c.val = kt.val * 512 + c'.val := congrArg Fin.val h
  exact Fin.ext (by omega)

theorem tile_nonempty (kt : Fin 16) : (tile kt).Nonempty :=
  ⟨col kt ⟨0, by norm_num⟩, Finset.mem_image_of_mem _ (Finset.mem_univ _)⟩

theorem sum_tile (kt : Fin 16) (f : Fin 8192 → EReal) :
    ∑ j ∈ tile kt, f j = ∑ c : Fin 512, f (col kt c) := by
  rw [tile, Finset.sum_image]
  intro c _ c' _ h
  exact col_injective kt h

theorem sup_tile (kt : Fin 16) (s : Fin 8192 → EReal) :
    (tile kt).sup s = ⨆ c : Fin 512, s (col kt c) := by
  rw [tile, Finset.sup_image, Finset.sup_univ_eq_iSup]
  rfl

theorem pre_zero : pre 0 = ∅ := by
  ext j
  simp [pre]

theorem pre_last : pre 16 = Finset.univ := by
  ext j
  simp only [pre, Finset.mem_filter, Finset.mem_univ, true_and, iff_true]
  have := j.isLt
  omega

theorem pre_succ (n : Nat) (h : n < 16) : pre (n + 1) = pre n ∪ tile ⟨n, h⟩ := by
  ext j
  simp only [pre, tile, Finset.mem_union, Finset.mem_filter, Finset.mem_univ, true_and, Finset.mem_image]
  constructor
  · intro hj
    by_cases hlt : j.val < n * 512
    · exact Or.inl hlt
    · refine Or.inr ⟨⟨j.val - n * 512, by omega⟩, ?_⟩
      apply Fin.ext
      show n * 512 + (j.val - n * 512) = j.val
      omega
  · rintro (hj | ⟨c, rfl⟩)
    · omega
    · show n * 512 + c.val < (n + 1) * 512
      have := c.isLt
      omega

theorem pre_disjoint (n : Nat) (h : n < 16) : Disjoint (pre n) (tile ⟨n, h⟩) := by
  rw [Finset.disjoint_left]
  intro j hj hj'
  simp only [pre, Finset.mem_filter, Finset.mem_univ, true_and] at hj
  simp only [tile, Finset.mem_image, Finset.mem_univ, true_and] at hj'
  obtain ⟨c, rfl⟩ := hj'
  have h2 : n * 512 + c.val < n * 512 := hj
  omega

/-! ### The partial state and one tile's update -/

/-- The state the kernel would hold had it seen exactly the columns in `A`. -/
def part (s wm wn : Fin 8192 → EReal) (A : Finset (Fin 8192)) : St :=
  { m := A.sup s
    sp := ∑ j ∈ A, Ideal.exp (s j - A.sup s) * wm j
    sn := ∑ j ∈ A, Ideal.exp (s j - A.sup s) * wn j
    cn := ∑ j ∈ A, wn j
    mp := ∑ j ∈ A, wm j
    sr := ∑ j ∈ A, wm j * s j }

/-- One tile's update carries the partial state of `A` to that of `A ∪ tile`, the tile disjoint from `A`. -/
theorem step_part (s wm wn : Fin 8192 → EReal) (sv wmv wnv : Fin 8192 → ℝ)
    (hs : ∀ j, s j = (sv j : EReal)) (hm : ∀ j, wm j = (wmv j : EReal)) (hn : ∀ j, wn j = (wnv j : EReal))
    (kt : Fin 16) (A : Finset (Fin 8192)) (hd : Disjoint A (tile kt)) :
    step s wm wn kt (part s wm wn A) = part s wm wn (A ∪ tile kt) := by
  have hmax : max (A.sup s) (⨆ c : Fin 512, s (col kt c)) = (A ∪ tile kt).sup s := by
    rw [Finset.sup_union, sup_tile]
  obtain ⟨b, hb⟩ : ∃ b : ℝ, (A ∪ tile kt).sup s = (b : EReal) := by
    have hs' : s = fun j => (sv j : EReal) := funext hs
    rw [hs']
    exact sup_coe_real _ (Finset.Nonempty.inr (tile_nonempty kt)) sv
  simp only [step, part]
  rw [St.mk.injEq]
  refine ⟨hmax, ?_, ?_, ?_, ?_, ?_⟩
  · rw [hmax, hb, Finset.sum_union hd, sum_tile, rescale_sup s wm sv wmv hs hm A b]
  · rw [hmax, hb, Finset.sum_union hd, sum_tile, rescale_sup s wn sv wnv hs hn A b]
  · rw [Finset.sum_union hd, sum_tile]
  · rw [Finset.sum_union hd, sum_tile]
  · rw [Finset.sum_union hd, sum_tile]

/-- After `n ≤ 16` tiles the state is the partial state of the first `n·512` columns. -/
theorem stateAt_part (s wm wn : Fin 8192 → EReal) (sv wmv wnv : Fin 8192 → ℝ)
    (hs : ∀ j, s j = (sv j : EReal)) (hm : ∀ j, wm j = (wmv j : EReal)) (hn : ∀ j, wn j = (wnv j : EReal))
    (n : Nat) (hn16 : n ≤ 16) : stateAt s wm wn n = part s wm wn (pre n) := by
  induction n with
  | zero =>
    rw [pre_zero]
    simp [stateAt, part, St.init]
  | succ k ih =>
    have hk : k < 16 := by omega
    rw [stateAt, dif_pos hk, ih (by omega), pre_succ k hk]
    exact step_part s wm wn sv wmv wnv hs hm hn ⟨k, hk⟩ (pre k) (pre_disjoint k hk)

end Online

/-- The state after all sixteen tiles is the one-pass state over all 8192 columns. -/
theorem stateAt_final (s wm wn : Fin 8192 → EReal)
    (hs : ∀ j, ∃ v : ℝ, s j = (v : EReal)) (hm : ∀ j, ∃ v : ℝ, wm j = (v : EReal)) (hn : ∀ j, ∃ v : ℝ, wn j = (v : EReal)) :
    stateAt s wm wn 16 =
      { m := ⨆ j : Fin 8192, s j
        sp := ∑ j : Fin 8192, Ideal.exp (s j - ⨆ j' : Fin 8192, s j') * wm j
        sn := ∑ j : Fin 8192, Ideal.exp (s j - ⨆ j' : Fin 8192, s j') * wn j
        cn := ∑ j : Fin 8192, wn j
        mp := ∑ j : Fin 8192, wm j
        sr := ∑ j : Fin 8192, wm j * s j } := by
  choose sv hsv using hs
  choose wmv hmv using hm
  choose wnv hnv using hn
  rw [Online.stateAt_part s wm wn sv wmv wnv hsv hmv hnv 16 (le_refl _), Online.pre_last]
  simp only [Online.part, Finset.sup_univ_eq_iSup]

end Cert.Spec

end
-- ==== Proof.RowAlgebra.lean ====
/-
  The algebra of one row.

  On a feature matrix of real numbers the two scores of a pair of rows are the same real number, the 0/1 weights are
  real numbers, and the loss formed from the global maximum and the global sums (the kernel's last step, fed the
  whole row at once) is the reference's loss: the two numerators differ by distributing the positives' weights over
  `score − max − log`, an identity of real numbers once every quantity in sight is known to be real.
-/
import proofs.«167592_j69320772158191_1_alg».proof.Proof.Spec
import Idealize.ShloMosaic.PureOps.Ideal.Laws

noncomputable section

namespace Cert.Spec

open Idealize.ShloMosaic

namespace RowAlgebra

/-! ### Real numbers inside the extended reals -/

/-- A finite sum of real numbers, taken in the extended reals, is the real sum. -/
theorem coe_sum {ι : Type} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The supremum of finitely many real numbers, at least one, is one of them: a real number. -/
theorem iSup_coe_real {ι : Type} [Fintype ι] [Nonempty ι] (f : ι → ℝ) :
    ∃ v : ℝ, (⨆ i, (f i : EReal)) = (v : EReal) := by
  obtain ⟨i₀, h⟩ := Finite.exists_max f
  exact ⟨f i₀, le_antisymm (iSup_le fun i => EReal.coe_le_coe_iff.2 (h i)) (le_iSup (fun i => (f i : EReal)) i₀)⟩

/-! ### The scores -/

/-- The inner product of two rows of real numbers is a real number. -/
theorem dot_real (x : Feat) (hx : Finite x) (r j : Fin 8192) : ∃ v : ℝ, dot x r j = (v : EReal) := by
  have hx' : ∀ r k, ∃ v : ℝ, x r k = (v : EReal) := hx
  choose xv hxv using hx'
  refine ⟨∑ k : Fin 256, xv r k * xv j k, ?_⟩
  unfold dot
  rw [← coe_sum]
  refine Finset.sum_congr rfl fun k _ => ?_
  rw [hxv r k, hxv j k, EReal.coe_mul]

/-- Both scores are the real number `−⟨x_r, x_j⟩ · (134217728 / 9395241)`. -/
theorem scores_coe (x : Feat) (hx : Finite x) (r j : Fin 8192) :
    ∃ d : ℝ, sK x r j = ((-d * (134217728 / 9395241) : ℝ) : EReal) ∧
      sR x r j = ((-d * (134217728 / 9395241) : ℝ) : EReal) := by
  obtain ⟨d, hd⟩ := dot_real x hx r j
  have hT : (9395241 / 134217728 : ℝ) ≠ 0 := by norm_num
  refine ⟨d, ?_, ?_⟩
  · unfold sK kappa
    rw [hd, ← EReal.coe_zero, ← EReal.coe_sub, zero_sub, ← EReal.coe_mul]
  · unfold sR temp
    rw [Ideal.div_coe hT, hd, ← EReal.coe_neg, ← EReal.coe_mul]
    congr 1
    norm_num

/-- On real features the kernel's score and the reference's score agree. -/
theorem sK_eq_sR (x : Feat) (hx : Finite x) (r j : Fin 8192) : sK x r j = sR x r j := by
  obtain ⟨d, h₁, h₂⟩ := scores_coe x hx r j
  rw [h₁, h₂]

/-! ### The 0/1 weights -/

/-- The positives' weight as a real number: 1 on an off-diagonal pair with equal labels. -/
def mkR (l : Lab) (r j : Fin 8192) : ℝ := if l r = l j ∧ r ≠ j then 1 else 0
/-- The negatives' weight as a real number: 1 on an off-diagonal pair with different labels. -/
def ngR (l : Lab) (r j : Fin 8192) : ℝ := if l r ≠ l j ∧ r ≠ j then 1 else 0

theorem one_sub_one : (1 : EReal) - 1 = 0 := by
  rw [← EReal.coe_one, ← EReal.coe_sub, sub_self, EReal.coe_zero]

theorem mk_eq (l : Lab) (r j : Fin 8192) : mk l r j = (mkR l r j : EReal) := by
  unfold mk pos lm eye mkR
  by_cases h₁ : l r = l j <;> by_cases h₂ : r = j <;> simp [h₁, h₂, one_sub_one]

theorem ng_eq (l : Lab) (r j : Fin 8192) : ng l r j = (ngR l r j : EReal) := by
  unfold ng mk pos lm eye ngR
  by_cases h₁ : l r = l j <;> by_cases h₂ : r = j <;> simp [h₁, h₂, one_sub_one]

theorem mkR_nonneg (l : Lab) (r j : Fin 8192) : 0 ≤ mkR l r j := by
  unfold mkR; split_ifs <;> norm_num
theorem ngR_nonneg (l : Lab) (r j : Fin 8192) : 0 ≤ ngR l r j := by
  unfold ngR; split_ifs <;> norm_num

/-- Off the diagonal a pair is a positive or a negative. -/
theorem mkR_or_ngR (l : Lab) {r j : Fin 8192} (h : r ≠ j) : mkR l r j = 1 ∨ ngR l r j = 1 := by
  unfold mkR ngR
  by_cases h₁ : l r = l j
  · left; simp [h₁, h]
  · right; simp [h₁, h]

/-- The small constant added to the count of negatives is a positive real number. -/
theorem e8_pos_real : ∃ v : ℝ, 0 < v ∧ e8 = (v : EReal) := by
  unfold e8
  simp [Ideal.ofBits, Ideal.ieee]
  refine ⟨11258999 * (2 ^ 50)⁻¹, by positivity, ?_⟩
  rw [EReal.coe_mul]

/-! ### The row's loss, over any finite set of columns -/

section Row

variable {ι : Type} [Fintype ι] (s m n : ι → ℝ) (M e : ℝ)

/-- The exponential of a difference of real numbers is the real exponential. -/
theorem exp_sub_coe (a b : ℝ) : Ideal.exp ((a : EReal) - (b : EReal)) = ((Real.exp (a - b) : ℝ) : EReal) := by
  rw [← EReal.coe_sub, Ideal.exp_coe]

/-- A weighted sum of the exponentials is a real number. -/
theorem expsum_coe (w : ι → ℝ) :
    (∑ j, Ideal.exp ((s j : EReal) - (M : EReal)) * (w j : EReal)) = ((∑ j, Real.exp (s j - M) * w j : ℝ) : EReal) := by
  rw [← coe_sum]
  refine Finset.sum_congr rfl fun j _ => ?_
  rw [exp_sub_coe, EReal.coe_mul]

/-- The argument of the logarithm is a positive real number, so the logarithm is a real number: some column off
    the diagonal is a positive or a negative, and its exponential is a positive term of one of the two sums. -/
theorem log_real (he : 0 < e) (hm : ∀ j, 0 ≤ m j) (hn : ∀ j, 0 ≤ n j) (j₀ : ι) (h₀ : m j₀ = 1 ∨ n j₀ = 1) :
    ∃ L : ℝ, Ideal.log ((∑ j, Ideal.exp ((s j : EReal) - (M : EReal)) * (m j : EReal))
      + Ideal.div (∑ j, Ideal.exp ((s j : EReal) - (M : EReal)) * (n j : EReal)) ((∑ j, (n j : EReal)) + (e : EReal)))
      = (L : EReal) := by
  have hcn : 0 ≤ ∑ j, n j := Finset.sum_nonneg fun j _ => hn j
  have hden : 0 < (∑ j, n j) + e := by linarith
  have hterm : ∀ (w : ι → ℝ), (∀ j, 0 ≤ w j) → ∀ j ∈ (Finset.univ : Finset ι), 0 ≤ Real.exp (s j - M) * w j :=
    fun w hw j _ => mul_nonneg (Real.exp_pos _).le (hw j)
  have hsp : 0 ≤ ∑ j, Real.exp (s j - M) * m j := Finset.sum_nonneg (hterm m hm)
  have hsn : 0 ≤ ∑ j, Real.exp (s j - M) * n j := Finset.sum_nonneg (hterm n hn)
  have hD : 0 < (∑ j, Real.exp (s j - M) * m j) + (∑ j, Real.exp (s j - M) * n j) * (1 / ((∑ j, n j) + e)) := by
    have hinv : 0 < 1 / ((∑ j, n j) + e) := by positivity
    rcases h₀ with h | h
    · have h1 : Real.exp (s j₀ - M) * m j₀ ≤ ∑ j, Real.exp (s j - M) * m j :=
        Finset.single_le_sum (hterm m hm) (Finset.mem_univ j₀)
      have h2 : 0 < Real.exp (s j₀ - M) * m j₀ := by rw [h, mul_one]; exact Real.exp_pos _
      have h3 : 0 ≤ (∑ j, Real.exp (s j - M) * n j) * (1 / ((∑ j, n j) + e)) := mul_nonneg hsn hinv.le
      linarith
    · have h1 : Real.exp (s j₀ - M) * n j₀ ≤ ∑ j, Real.exp (s j - M) * n j :=
        Finset.single_le_sum (hterm n hn) (Finset.mem_univ j₀)
      have h2 : 0 < Real.exp (s j₀ - M) * n j₀ := by rw [h, mul_one]; exact Real.exp_pos _
      have h3 : 0 < (∑ j, Real.exp (s j - M) * n j) * (1 / ((∑ j, n j) + e)) := mul_pos (lt_of_lt_of_le h2 h1) hinv
      linarith
  refine ⟨Real.log ((∑ j, Real.exp (s j - M) * m j) + (∑ j, Real.exp (s j - M) * n j) * (1 / ((∑ j, n j) + e))), ?_⟩
  rw [expsum_coe, expsum_coe, coe_sum, ← EReal.coe_add, Ideal.div_coe hden.ne', ← EReal.coe_mul, ← EReal.coe_add,
    Ideal.log_coe, if_neg (not_le.2 hD)]

/-- The two numerators: the positives' weights distribute over `score − max − log`. -/
theorem numerator_eq (L : ℝ) :
    ((∑ j, (m j : EReal) * (s j : EReal)) - (∑ j, (m j : EReal)) * (M : EReal)) - (∑ j, (m j : EReal)) * (L : EReal)
      = ∑ j, (m j : EReal) * (((s j : EReal) - (M : EReal)) - (L : EReal)) := by
  have hl : (∑ j, (m j : EReal) * (s j : EReal)) = ((∑ j, m j * s j : ℝ) : EReal) := by
    rw [← coe_sum]; exact Finset.sum_congr rfl fun j _ => (EReal.coe_mul _ _).symm
  have hr : (∑ j, (m j : EReal) * (((s j : EReal) - (M : EReal)) - (L : EReal)))
      = ((∑ j, m j * ((s j - M) - L) : ℝ) : EReal) := by
    rw [← coe_sum]; refine Finset.sum_congr rfl fun j _ => ?_
    rw [← EReal.coe_sub, ← EReal.coe_sub, ← EReal.coe_mul]
  rw [hl, hr, coe_sum, ← EReal.coe_mul, ← EReal.coe_sub, ← EReal.coe_mul, ← EReal.coe_sub]
  congr 1
  simp only [mul_sub, Finset.sum_sub_distrib, Finset.sum_mul]

end Row

/-- Every row has a column off its diagonal. -/
theorem exists_off_diagonal (r : Fin 8192) : ∃ j₀ : Fin 8192, r ≠ j₀ := by
  by_cases h : r.val = 0
  · refine ⟨⟨1, by norm_num⟩, fun hh => ?_⟩
    have h1 : r.val = 1 := congrArg Fin.val hh
    omega
  · exact ⟨⟨0, by norm_num⟩, fun hh => h (congrArg Fin.val hh)⟩

end RowAlgebra

open RowAlgebra

/-! ### The kernel's last step on the global quantities is the reference's row -/

/-- The kernel's score on real features is a real number. -/
theorem sK_real (x : Feat) (hx : Finite x) (r j : Fin 8192) : ∃ v : ℝ, sK x r j = (v : EReal) := by
  obtain ⟨d, h, _⟩ := scores_coe x hx r j
  exact ⟨_, h⟩

/-- The positives' and the negatives' weights are real numbers. -/
theorem mk_real (l : Lab) (r j : Fin 8192) : ∃ v : ℝ, mk l r j = (v : EReal) := ⟨_, mk_eq l r j⟩
theorem ng_real (l : Lab) (r j : Fin 8192) : ∃ v : ℝ, ng l r j = (v : EReal) := ⟨_, ng_eq l r j⟩

theorem outF_global_eq_refRow (x : Feat) (l : Lab) (hx : Finite x) (r : Fin 8192) :
    outF { m := ⨆ j : Fin 8192, sK x r j
           sp := ∑ j : Fin 8192, Ideal.exp (sK x r j - ⨆ j' : Fin 8192, sK x r j') * mk l r j
           sn := ∑ j : Fin 8192, Ideal.exp (sK x r j - ⨆ j' : Fin 8192, sK x r j') * ng l r j
           cn := ∑ j : Fin 8192, ng l r j
           mp := ∑ j : Fin 8192, mk l r j
           sr := ∑ j : Fin 8192, mk l r j * sK x r j } = refRow x l r := by
  have hsK : ∀ j, ∃ v : ℝ, sK x r j = (v : EReal) := sK_real x hx r
  choose sv hsv using hsK
  obtain ⟨Mv, hM⟩ := iSup_coe_real sv
  obtain ⟨ev, hev, he8⟩ := e8_pos_real
  obtain ⟨j₀, hj₀⟩ := exists_off_diagonal r
  obtain ⟨L, hL⟩ := log_real sv (mkR l r) (ngR l r) Mv ev hev (mkR_nonneg l r) (ngR_nonneg l r) j₀ (mkR_or_ngR l hj₀)
  have hR : ∀ j, sR x r j = ((sv j : ℝ) : EReal) := fun j => by rw [← sK_eq_sR x hx r j, hsv j]
  unfold outF refRow
  simp only [hsv, hR, mk_eq, ng_eq, hM, he8]
  rw [hL, numerator_eq, mul_one, one_mul]

end Cert.Spec

end
-- ==== Proof.Bridge.lean ====
/-
  The law that joins the two programs, row by row: on real features the kernel's row loss — the final step of the
  online walk over the sixteen column tiles — is the reference's row loss, computed over all columns at once.
  The walk's final state is the one-pass state (the online-softmax invariant), and on the one-pass state the kernel's
  last step is the reference's formula (the row algebra).
-/
import proofs.«167592_j69320772158191_1_alg».proof.Proof.Online
import proofs.«167592_j69320772158191_1_alg».proof.Proof.RowAlgebra

noncomputable section

namespace Cert.Spec

/-- On real features the kernel's value of a row is the reference's. -/
theorem kerRow_eq_refRow (x : Feat) (l : Lab) (hx : Finite x) (r : Fin 8192) : kerRow x l r = refRow x l r := by
  unfold kerRow
  rw [stateAt_final _ _ _ (sK_real x hx r) (mk_real l r) (ng_real l r)]
  exact outF_global_eq_refRow x l hx r

end Cert.Spec

end
-- ==== Proof.lean ====
/-
  Two programs compute the same supervised contrastive loss of a feature matrix `x : [8192, 256]` with labels
  `l : [8192]`.  Row `r` is scored against every row `j` by the negated inner product over the temperature;
  pairs with equal labels, the diagonal excluded, are the positives, the other off-diagonal pairs the negatives; the
  loss of row `r` is the mean over its positives of
  `score − max − log (Σ_pos exp(score − max) + (Σ_neg exp(score − max)) / (#neg + ε))`, and the result is the mean of the
  rows' losses.

  The reference forms the whole `8192 × 8192` score matrix, takes each row's maximum and the sums over all columns at
  once, and divides by the temperature.  The kernel walks a `16 × 16` grid of `512 × 512` tiles: for each row tile it
  visits the sixteen column tiles in turn, keeping per row a running maximum and two exponential sums that it rescales
  whenever the maximum grows, and forms the rows' losses at the last column tile; it multiplies by the reciprocal of the
  temperature, a constant the idealized kernel names `inv_temperature` and the certificate's table reads as the exact
  rational `134217728 / 9395241`, the reciprocal of the temperature's own value.

  On the extended reals, for features that are real numbers (the precondition), the two agree: the online walk's final
  state is the one-pass state — `exp(m − m')·exp(s − m) = exp(s − m')` carries the rescaled sums from tile to tile —,
  the product with the named reciprocal is the quotient by the temperature, and on the one-pass state the kernel's last
  step is the reference's row formula (`Cert.Spec.kerRow_eq_refRow`).  Each program's run is read back as the mean of its
  rows (`kernel_total`, `ref_total`), the arguments agree, and the rows are equal.  The three frame claims are the runs
  with the value forgotten; the idealization's one rewrite is the named constant's statement.
-/
import proofs.«167592_j69320772158191_1_alg».proof.Defs
import proofs.«167592_j69320772158191_1_alg».proof.Proof.Gen.Kernel
import proofs.«167592_j69320772158191_1_alg».proof.Proof.Gen.Kernel.Skeleton
import proofs.«167592_j69320772158191_1_alg».proof.Proof.Gen.Kernel.Launch
import proofs.«167592_j69320772158191_1_alg».proof.Proof.Gen.Kernel.Points
import proofs.«167592_j69320772158191_1_alg».proof.Proof.Gen.KernelIdeal
import proofs.«167592_j69320772158191_1_alg».proof.Proof.Gen.KernelIdeal.Skeleton
import proofs.«167592_j69320772158191_1_alg».proof.Proof.Gen.KernelIdeal.Launch
import proofs.«167592_j69320772158191_1_alg».proof.Proof.Gen.KernelIdeal.Points
import proofs.«167592_j69320772158191_1_alg».proof.Proof.Gen.ReferenceIdeal
import proofs.«167592_j69320772158191_1_alg».proof.Proof.Gen.Pre_finite_inputs
import proofs.«167592_j69320772158191_1_alg».proof.Proof.K.Launch
import proofs.«167592_j69320772158191_1_alg».proof.Proof.KI.Launch
import proofs.«167592_j69320772158191_1_alg».proof.Proof.KI.ArrayValue
import proofs.«167592_j69320772158191_1_alg».proof.Proof.RefRun
import proofs.«167592_j69320772158191_1_alg».proof.Proof.RefRead
import proofs.«167592_j69320772158191_1_alg».proof.Proof.RefValue
import proofs.«167592_j69320772158191_1_alg».proof.Proof.Finite
import proofs.«167592_j69320772158191_1_alg».proof.Proof.Bridge
import Idealize.ShloMosaic.Adequacy
import Idealize.ShloMosaic.Init

noncomputable section

namespace Cert.Proof

open Idealize.ShloMosaic Idealize.ShloMosaic.TcCoe Idealize.SL.Sem Cert.Kernel

/-- The kernel as printed runs and leaves its arguments as launched: its run with the value forgotten. -/
theorem frame_kernel : Cert.frame_Kernel := fun m ρ _ =>
  (θ_run Cert.Kernel.defs _ _).mono (fun _ h c => (h c).2) (Cert.Kernel.Hand.run_main (F := Bits) m ρ)

/-- The idealized kernel likewise, on the extended reals. -/
theorem frame_kernelIdeal : Cert.frame_KernelIdeal := fun m ρ _ =>
  (θ_run Cert.KernelIdeal.defs _ _).mono (fun _ h c => (h c).2) (Cert.KernelIdeal.Hand.run_main (F := Ideal) m ρ)

/-- The idealized reference likewise. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization's one rewrite: the table gives `inv_temperature` the exact reciprocal of the temperature, and the
    printed constant is that value on the extended reals. -/
theorem preserves : Cert.preserves_Kernel_KernelIdeal :=
  IdealRules.named_const.statement Cert.KernelIdeal.κ "inv_temperature" .f32 0x41649249#32
    ((134217728 / 9395241 : ℝ) : EReal) rfl

/-- On the extended reals, from arguments that agree and features that are real numbers, both programs end at the mean
    over the rows of the kernel's row loss: the kernel by its run read back, the reference because its row loss is
    the kernel's on every row. -/
theorem algebraic : Cert.algebraic_KernelIdeal_ReferenceIdeal := by
  intro m ρ m' ρ' hpre hagree
  refine ⟨fun c => fun _ => Cert.Spec.total (Cert.Spec.kerRow (Cert.KernelIdeal.Hand.xOf m c) (Cert.KernelIdeal.Hand.lOf m c)),
    ?_, ?_⟩
  · exact (θ_run Cert.KernelIdeal.defs _ _).mono
      (fun _ h c => ⟨(h c).1.trans (Cert.KernelIdeal.Hand.kernel_total m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v51_eq, Cert.RefValue.ref_total, (hagree c).1, (hagree c).2.1]
    funext _
    refine congrArg Cert.Spec.total (funext fun r => ?_)
    exact (Cert.Spec.kerRow_eq_refRow _ _ (Cert.Finite.finite_of_pre _ _ _ (hpre c)) r).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
